-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4096 : Shape := ⟨2, ![256, 4096]⟩
abbrev S6250x4096 : Shape := ⟨2, ![6250, 4096]⟩
abbrev S6250 : Shape := ⟨1, ![6250]⟩
abbrev S10x6250 : Shape := ⟨2, ![10, 6250]⟩
abbrev S10 : Shape := ⟨1, ![10]⟩
abbrev S_ : Shape := ⟨0, ![]⟩

class Facts : Prop where
  bcast_S_S256x4096 : S_.BroadcastsInDim S256x4096 (![] : Fin 0 → Fin S256x4096.rank)
  reducesTo_S256x4096_S_d0_1 : S256x4096.ReducesTo [0, 1] S_
  h_S_ : 0 < S_.numel
  bcast_S_S6250x4096 : S_.BroadcastsInDim S6250x4096 (![] : Fin 0 → Fin S6250x4096.rank)
  reducesTo_S6250x4096_S_d0_1 : S6250x4096.ReducesTo [0, 1] S_
  bcast_S_S6250 : S_.BroadcastsInDim S6250 (![] : Fin 0 → Fin S6250.rank)
  reducesTo_S6250_S_d0 : S6250.ReducesTo [0] S_
  bcast_S_S10x6250 : S_.BroadcastsInDim S10x6250 (![] : Fin 0 → Fin S10x6250.rank)
  reducesTo_S10x6250_S_d0_1 : S10x6250.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg7 : FVec F S6250x4096 .f32) (main_v33 : IVec S_ 1) : IVec S_ 1 :=
  let main_v34 : FVec F S6250x4096 .f32 := Host.absf main_arg7
  let main_cst_12 : FVec F S_ .f32 := constant S_ .f32 0x7F800000#32
  let main_v35 : FVec F S6250x4096 .f32 := broadcastInDim S6250x4096 ![] bcast_S_S6250x4096 main_cst_12
  let main_v36 : IVec S6250x4096 1 := cmpf .olt main_v34 main_v35
  let main_c_13 : IVec S_ 1 := constantI S_ 1 1#1
  let main_v37 : IVec S_ 1 := (fun x v => Host.reduce IntOp.andi x v reducesTo_S6250x4096_S_d0_1 h_S_) main_v36 main_c_13
  let main_v38 : IVec S_ 1 := andi main_v33 main_v37
  main_v38

def fn_part1 {F : FTy → Type} [FloatOps F] (main_arg4 : FVec F S6250 .f32) (main_arg5 : FVec F S10x6250 .f32) (main_arg6 : FVec F S10 .f32) (main_arg7 : FVec F S6250x4096 .f32) (main_v13 : IVec S_ 1) (main_v16 : IVec S6250x4096 1) : IVec S_ 1 :=
  let main_c_5 : IVec S_ 1 := constantI S_ 1 1#1
  let main_v17 : IVec S_ 1 := (fun x v => Host.reduce IntOp.andi x v reducesTo_S6250x4096_S_d0_1 h_S_) main_v16 main_c_5
  let main_v18 : IVec S_ 1 := andi main_v13 main_v17
  let main_v19 : FVec F S6250 .f32 := Host.absf main_arg4
  let main_cst_6 : FVec F S_ .f32 := constant S_ .f32 0x7F800000#32
  let main_v20 : FVec F S6250 .f32 := broadcastInDim S6250 ![] bcast_S_S6250 main_cst_6
  let main_v21 : IVec S6250 1 := cmpf .olt main_v19 main_v20
  let main_c_7 : IVec S_ 1 := constantI S_ 1 1#1
  let main_v22 : IVec S_ 1 := (fun x v => Host.reduce IntOp.andi x v reducesTo_S6250_S_d0 h_S_) main_v21 main_c_7
  let main_v23 : IVec S_ 1 := andi main_v18 main_v22
  let main_v24 : FVec F S10x6250 .f32 := Host.absf main_arg5
  let main_cst_8 : FVec F S_ .f32 := constant S_ .f32 0x7F800000#32
  let main_v25 : FVec F S10x6250 .f32 := broadcastInDim S10x6250 ![] bcast_S_S10x6250 main_cst_8
  let main_v26 : IVec S10x6250 1 := cmpf .olt main_v24 main_v25
  let main_c_9 : IVec S_ 1 := constantI S_ 1 1#1
  let main_v27 : IVec S_ 1 := (fun x v => Host.reduce IntOp.andi x v reducesTo_S10x6250_S_d0_1 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  fn_part2 (F := F) main_arg7 main_v33

def fn {F : FTy → Type} [FloatOps F] (main_arg0 : FVec F S256x4096 .f32) (main_arg1 : FVec F S6250x4096 .f32) (main_arg2 : FVec F S6250x4096 .f32) (main_arg3 : FVec F S6250x4096 .f32) (main_arg4 : FVec F S6250 .f32) (main_arg5 : FVec F S10x6250 .f32) (main_arg6 : FVec F S10 .f32) (main_arg7 : FVec F S6250x4096 .f32) : IVec S_ 1 :=
  let main_v0 : FVec F S256x4096 .f32 := Host.absf main_arg0
  let main_cst : FVec F S_ .f32 := constant S_ .f32 0x7F800000#32
  let main_v1 : FVec F S256x4096 .f32 := broadcastInDim S256x4096 ![] bcast_S_S256x4096 main_cst
  let main_v2 : IVec S256x4096 1 := cmpf .olt main_v0 main_v1
  let main_c : IVec S_ 1 := constantI S_ 1 1#1
  let main_v3 : IVec S_ 1 := (fun x v => Host.reduce IntOp.andi x v reducesTo_S256x4096_S_d0_1 h_S_) main_v2 main_c
  let main_v4 : FVec F S6250x4096 .f32 := Host.absf main_arg1
  let main_cst_0 : FVec F S_ .f32 := constant S_ .f32 0x7F800000#32
  let main_v5 : FVec F S6250x4096 .f32 := broadcastInDim S6250x4096 ![] bcast_S_S6250x4096 main_cst_0
  let main_v6 : IVec S6250x4096 1 := cmpf .olt main_v4 main_v5
  let main_c_1 : IVec S_ 1 := constantI S_ 1 1#1
  let main_v7 : IVec S_ 1 := (fun x v => Host.reduce IntOp.andi x v reducesTo_S6250x4096_S_d0_1 h_S_) main_v6 main_c_1
  let main_v8 : IVec S_ 1 := andi main_v3 main_v7
  let main_v9 : FVec F S6250x4096 .f32 := Host.absf main_arg2
  let main_cst_2 : FVec F S_ .f32 := constant S_ .f32 0x7F800000#32
  let main_v10 : FVec F S6250x4096 .f32 := broadcastInDim S6250x4096 ![] bcast_S_S6250x4096 main_cst_2
  let main_v11 : IVec S6250x4096 1 := cmpf .olt main_v9 main_v10
  let main_c_3 : IVec S_ 1 := constantI S_ 1 1#1
  let main_v12 : IVec S_ 1 := (fun x v => Host.reduce IntOp.andi x v reducesTo_S6250x4096_S_d0_1 h_S_) main_v11 main_c_3
  let main_v13 : IVec S_ 1 := andi main_v8 main_v12
  let main_v14 : FVec F S6250x4096 .f32 := Host.absf main_arg3
  let main_cst_4 : FVec F S_ .f32 := constant S_ .f32 0x7F800000#32
  let main_v15 : FVec F S6250x4096 .f32 := broadcastInDim S6250x4096 ![] bcast_S_S6250x4096 main_cst_4
  let main_v16 : IVec S6250x4096 1 := cmpf .olt main_v14 main_v15
  fn_part1 (F := F) main_arg4 main_arg5 main_arg6 main_arg7 main_v13 main_v16
-- ==== Kernel.lean ====
abbrev S256x4096 : Shape := ⟨2, ![256, 4096]⟩
abbrev S6250x4096 : Shape := ⟨2, ![6250, 4096]⟩
abbrev S6250 : Shape := ⟨1, ![6250]⟩
abbrev S10x6250 : Shape := ⟨2, ![10, 6250]⟩
abbrev S10 : Shape := ⟨1, ![10]⟩
abbrev S_ : Shape := ⟨0, ![]⟩
abbrev S6272x4096 : Shape := ⟨2, ![6272, 4096]⟩
abbrev S6272 : Shape := ⟨1, ![6272]⟩
abbrev S1x6272 : Shape := ⟨2, ![1, 6272]⟩
abbrev S10x6272 : Shape := ⟨2, ![10, 6272]⟩
abbrev S256x10 : Shape := ⟨2, ![256, 10]⟩
abbrev S128x4096 : Shape := ⟨2, ![128, 4096]⟩
abbrev S1x128 : Shape := ⟨2, ![1, 128]⟩
abbrev S10x128 : Shape := ⟨2, ![10, 128]⟩
abbrev S4096x128 : Shape := ⟨2, ![4096, 128]⟩
abbrev S256x128 : Shape := ⟨2, ![256, 128]⟩
abbrev S128x10 : Shape := ⟨2, ![128, 10]⟩
abbrev S1x10 : Shape := ⟨2, ![1, 10]⟩

abbrev nBuf : Space → Nat
  | .hbm => 36
  | .vmem => 15
  | .smem => 0
  | _ => 0

abbrev bufTy : (tb : Table) → Fin (tcTables nBuf tb) → BufTy
  | .hbm, ⟨0, _⟩ => ⟨S256x4096, .f32⟩
  | .hbm, ⟨1, _⟩ => ⟨S6250x4096, .f32⟩
  | .hbm, ⟨2, _⟩ => ⟨S6250x4096, .f32⟩
  | .hbm, ⟨3, _⟩ => ⟨S6250x4096, .f32⟩
  | .hbm, ⟨4, _⟩ => ⟨S6250, .f32⟩
  | .hbm, ⟨5, _⟩ => ⟨S10x6250, .f32⟩
  | .hbm, ⟨6, _⟩ => ⟨S10, .f32⟩
  | .hbm, ⟨7, _⟩ => ⟨S6250x4096, .f32⟩
  | .hbm, ⟨8, _⟩ => ⟨S256x4096, .bf16⟩
  | .hbm, ⟨9, _⟩ => ⟨S_, .i32⟩
  | .hbm, ⟨10, _⟩ => ⟨S_, .f32⟩
  | .hbm, ⟨11, _⟩ => ⟨S6272x4096, .f32⟩
  | .hbm, ⟨12, _⟩ => ⟨S6272x4096, .bf16⟩
  | .hbm, ⟨13, _⟩ => ⟨S_, .i32⟩
  | .hbm, ⟨14, _⟩ => ⟨S_, .f32⟩
  | .hbm, ⟨15, _⟩ => ⟨S6272x4096, .f32⟩
  | .hbm, ⟨16, _⟩ => ⟨S6272x4096, .bf16⟩
  | .hbm, ⟨17, _⟩ => ⟨S_, .i32⟩
  | .hbm, ⟨18, _⟩ => ⟨S_, .f32⟩
  | .hbm, ⟨19, _⟩ => ⟨S6272x4096, .f32⟩
  | .hbm, ⟨20, _⟩ => ⟨S6272x4096, .bf16⟩
  | .hbm, ⟨21, _⟩ => ⟨S_, .i32⟩
  | .hbm, ⟨22, _⟩ => ⟨S_, .f32⟩
  | .hbm, ⟨23, _⟩ => ⟨S6272x4096, .f32⟩
  | .hbm, ⟨24, _⟩ => ⟨S6272x4096, .bf16⟩
  | .hbm, ⟨25, _⟩ => ⟨S_, .i32⟩
  | .hbm, ⟨26, _⟩ => ⟨S_, .f32⟩
  | .hbm, ⟨27, _⟩ => ⟨S6272, .f32⟩
  | .hbm, ⟨28, _⟩ => ⟨S1x6272, .f32⟩
  | .hbm, ⟨29, _⟩ => ⟨S_, .i32⟩
  | .hbm, ⟨30, _⟩ => ⟨S_, .f32⟩
  | .hbm, ⟨31, _⟩ => ⟨S10x6272, .f32⟩
  | .hbm, ⟨32, _⟩ => ⟨S256x10, .f32⟩
  | .hbm, ⟨33, _⟩ => ⟨S1x10, .f32⟩
  | .hbm, ⟨34, _⟩ => ⟨S256x10, .f32⟩
  | .hbm, ⟨35, _⟩ => ⟨S256x10, .f32⟩
  | .local _ .vmem, ⟨0, _⟩ => ⟨S256x4096, .bf16⟩
  | .local _ .vmem, ⟨1, _⟩ => ⟨S128x4096, .bf16⟩
  | .local _ .vmem, ⟨2, _⟩ => ⟨S128x4096, .bf16⟩
  | .local _ .vmem, ⟨3, _⟩ => ⟨S128x4096, .bf16⟩
  | .local _ .vmem, ⟨4, _⟩ => ⟨S128x4096, .bf16⟩
  | .local _ .vmem, ⟨5, _⟩ => ⟨S128x4096, .bf16⟩
  | .local _ .vmem, ⟨6, _⟩ => ⟨S128x4096, .bf16⟩
  | .local _ .vmem, ⟨7, _⟩ => ⟨S128x4096, .bf16⟩
  | .local _ .vmem, ⟨8, _⟩ => ⟨S128x4096, .bf16⟩
  | .local _ .vmem, ⟨9, _⟩ => ⟨S1x128, .f32⟩
  | .local _ .vmem, ⟨10, _⟩ => ⟨S1x128, .f32⟩
  | .local _ .vmem, ⟨11, _⟩ => ⟨S10x128, .f32⟩
  | .local _ .vmem, ⟨12, _⟩ => ⟨S10x128, .f32⟩
  | .local _ .vmem, ⟨13, _⟩ => ⟨S256x10, .f32⟩
  | .local _ .vmem, ⟨14, _⟩ => ⟨S256x10, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_call1_v0 : Ref sig .tc := ⟨.hbm, 14, rfl⟩
abbrev main_v3 : Ref sig .tc := ⟨.hbm, 15, rfl⟩
abbrev main_v4 : Ref sig .tc := ⟨.hbm, 16, rfl⟩
abbrev main_c_1 : Ref sig .tc := ⟨.hbm, 17, rfl⟩
abbrev main_call2_v0 : Ref sig .tc := ⟨.hbm, 18, rfl⟩
abbrev main_v5 : Ref sig .tc := ⟨.hbm, 19, rfl⟩
abbrev main_v6 : Ref sig .tc := ⟨.hbm, 20, rfl⟩
abbrev main_c_2 : Ref sig .tc := ⟨.hbm, 21, rfl⟩
abbrev main_call3_v0 : Ref sig .tc := ⟨.hbm, 22, rfl⟩
abbrev main_v7 : Ref sig .tc := ⟨.hbm, 23, rfl⟩
abbrev main_v8 : Ref sig .tc := ⟨.hbm, 24, rfl⟩
abbrev main_c_3 : Ref sig .tc := ⟨.hbm, 25, rfl⟩
abbrev main_call4_v0 : Ref sig .tc := ⟨.hbm, 26, rfl⟩
abbrev main_v9 : Ref sig .tc := ⟨.hbm, 27, rfl⟩
abbrev main_v10 : Ref sig .tc := ⟨.hbm, 28, rfl⟩
abbrev main_c_4 : Ref sig .tc := ⟨.hbm, 29, rfl⟩
abbrev main_call5_v0 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S10x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x10 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

class Facts₀ : Prop where
  bitsLt_bf16_f32 : FTy.bits .bf16 < FTy.bits .f32
  pads_S6250x4096_S6272x4096_0220_000 : S6250x4096.Pads (![0, 0] : Fin 2 → Nat) ![22, 0] ![0, 0] S6272x4096
  h_S_ : 0 < S_.numel
  pads_S6250_S6272_0220 : S6250.Pads (![0] : Fin 1 → Nat) ![22] ![0] S6272
  shapeCasts_S6272_S1x6272 : S6272.ShapeCasts S1x6272
  pads_S10x6250_S10x6272_000_0220 : S10x6250.Pads (![0, 0] : Fin 2 → Nat) ![0, 22] ![0, 0] S10x6272
  inb_S256x10_S256x10_0_0 : ∀ a, (![0, 0] : Fin 2 → Nat) a + S256x10.size a ≤ S256x10.size a
  h_S256x10 : 0 < S256x10.numel
  shapeCasts_S256x10_S256x10 : S256x10.ShapeCasts S256x10
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  transposes_S128x4096_p1_0_S4096x128 : S128x4096.Transposes [1, 0] S4096x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S10x128_S10x128_0_0 : ∀ a, (![0, 0] : Fin 2 → Nat) a + S10x128.size a ≤ S10x128.size a
  h_S10x128 : 0 < S10x128.numel
  shapeCasts_S10x128_S10x128 : S10x128.ShapeCasts S10x128
  transposes_S10x128_p1_0_S128x10 : S10x128.Transposes [1, 0] S128x10
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  dot_S256x4096_S4096x128_S256x128_1_0_0_1_n_n_wf : DotDims.WF S256x4096 S4096x128 S256x128 [1] [0] [0] [1] [] []
  dot_S256x128_S128x10_S256x10_1_0_0_1_n_n_wf : DotDims.WF S256x128 S128x10 S256x10 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S256x4096.size a
  hwx0_0 : ∀ i : grid0.Coords, EltTy.bits .bf16 = 32 ∨ (Rect.block (s := S256x4096) S256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S6272x4096.size a
  hwx0_1 : ∀ i : grid0.Coords, EltTy.bits .bf16 = 32 ∨ (Rect.block (s := S6272x4096) S128x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S6272x4096.size a
  hwx0_2 : ∀ i : grid0.Coords, EltTy.bits .bf16 = 32 ∨ (Rect.block (s := S6272x4096) S128x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S6272x4096.size a
  hwx0_3 : ∀ i : grid0.Coords, EltTy.bits .bf16 = 32 ∨ (Rect.block (s := S6272x4096) S128x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S6272x4096.size a
  hwx0_4 : ∀ i : grid0.Coords, EltTy.bits .bf16 = 32 ∨ (Rect.block (s := S6272x4096) S128x4096.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x6272.size a
  hwx0_5 : ∀ i : grid0.Coords, EltTy.bits .f32 = 32 ∨ (Rect.block (s := S1x6272) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10x128.size a ≤ S10x6272.size a
  hwx0_6 : ∀ i : grid0.Coords, EltTy.bits .f32 = 32 ∨ (Rect.block (s := S10x6272) S10x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x10.size a ≤ S256x10.size a
  hwx0_7 : ∀ i : grid0.Coords, EltTy.bits .f32 = 32 ∨ (Rect.block (s := S256x10) S256x10.size (cc0_transform_7 i) (hinb0_7 i)).WholeWords (EltTy.packing .f32)

variable [Facts₀]

def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf
def dot_S256x128_S128x10_S256x10_1_0_0_1_n_n : DotDims S256x128 S128x10 S256x10 where
  lhsContracting := [1]
  rhsContracting := [0]
  lhsNonContracting := [0]
  rhsNonContracting := [1]
  lhsBatch := []
  rhsBatch := []
  wf := dot_S256x128_S128x10_S256x10_1_0_0_1_n_n_wf

abbrev win0_0 : Pipeline.Window sig grid0 :=
  Pipeline.Window.ofSpec (Memref.whole main_v0) S256x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S128x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11) S10x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v12) S256x10.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S256x4096 : Shape := ⟨2, ![256, 4096]⟩
abbrev S6250x4096 : Shape := ⟨2, ![6250, 4096]⟩
abbrev S6250 : Shape := ⟨1, ![6250]⟩
abbrev S10x6250 : Shape := ⟨2, ![10, 6250]⟩
abbrev S10 : Shape := ⟨1, ![10]⟩
abbrev S4096x6250 : Shape := ⟨2, ![4096, 6250]⟩
abbrev S256x6250 : Shape := ⟨2, ![256, 6250]⟩
abbrev S_ : Shape := ⟨0, ![]⟩
abbrev S1x6250 : Shape := ⟨2, ![1, 6250]⟩
abbrev S6250x10 : Shape := ⟨2, ![6250, 10]⟩
abbrev S256x10 : Shape := ⟨2, ![256, 10]⟩
abbrev S1x10 : Shape := ⟨2, ![1, 10]⟩

abbrev nBuf : Space → Nat
  | .hbm => 34
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S6250x4096, .f32⟩
  | .hbm, ⟨2, _⟩ => ⟨S6250x4096, .f32⟩
  | .hbm, ⟨3, _⟩ => ⟨S6250x4096, .f32⟩
  | .hbm, ⟨4, _⟩ => ⟨S6250, .f32⟩
  | .hbm, ⟨5, _⟩ => ⟨S10x6250, .f32⟩
  | .hbm, ⟨6, _⟩ => ⟨S10, .f32⟩
  | .hbm, ⟨7, _⟩ => ⟨S6250x4096, .f32⟩
  | .hbm, ⟨8, _⟩ => ⟨S6250x4096, .f32⟩
  | .hbm, ⟨9, _⟩ => ⟨S4096x6250, .f32⟩
  | .hbm, ⟨10, _⟩ => ⟨S256x6250, .f32⟩
  | .hbm, ⟨11, _⟩ => ⟨S6250x4096, .f32⟩
  | .hbm, ⟨12, _⟩ => ⟨S4096x6250, .f32⟩
  | .hbm, ⟨13, _⟩ => ⟨S256x6250, .f32⟩
  | .hbm, ⟨14, _⟩ => ⟨S_, .f32⟩
  | .hbm, ⟨15, _⟩ => ⟨S256x6250, .f32⟩
  | .hbm, ⟨16, _⟩ => ⟨S256x6250, .f32⟩
  | .hbm, ⟨17, _⟩ => ⟨S256x6250, .f32⟩
  | .hbm, ⟨18, _⟩ => ⟨S1x6250, .f32⟩
  | .hbm, ⟨19, _⟩ => ⟨S256x6250, .f32⟩
  | .hbm, ⟨20, _⟩ => ⟨S256x6250, .f32⟩
  | .hbm, ⟨21, _⟩ => ⟨S6250x4096, .f32⟩
  | .hbm, ⟨22, _⟩ => ⟨S4096x6250, .f32⟩
  | .hbm, ⟨23, _⟩ => ⟨S256x6250, .f32⟩
  | .hbm, ⟨24, _⟩ => ⟨S_, .f32⟩
  | .hbm, ⟨25, _⟩ => ⟨S256x6250, .f32⟩
  | .hbm, ⟨26, _⟩ => ⟨S256x6250, .f32⟩
  | .hbm, ⟨27, _⟩ => ⟨S256x6250, .f32⟩
  | .hbm, ⟨28, _⟩ => ⟨S256x6250, .f32⟩
  | .hbm, ⟨29, _⟩ => ⟨S6250x10, .f32⟩
  | .hbm, ⟨30, _⟩ => ⟨S256x10, .f32⟩
  | .hbm, ⟨31, _⟩ => ⟨S1x10, .f32⟩
  | .hbm, ⟨32, _⟩ => ⟨S256x10, .f32⟩
  | .hbm, ⟨33, _⟩ => ⟨S256x10, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  transposes_S6250x4096_S4096x6250_1_0 : S6250x4096.Transposes [1, 0] S4096x6250
  bcast_S_S256x6250 : S_.BroadcastsInDim S256x6250 (![] : Fin 0 → Fin S256x6250.rank)
  bcast_S6250_S1x6250_1 : S6250.BroadcastsInDim S1x6250 (![1] : Fin 1 → Fin S1x6250.rank)
  bcast_S1x6250_S256x6250_0_1 : S1x6250.BroadcastsInDim S256x6250 (![0, 1] : Fin 2 → Fin S256x6250.rank)
  transposes_S10x6250_S6250x10_1_0 : S10x6250.Transposes [1, 0] S6250x10
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  dot_S256x4096_S4096x6250_S256x6250_1_0_0_1_n_n_wf : DotDims.WF S256x4096 S4096x6250 S256x6250 [1] [0] [0] [1] [] []
  dot_S256x6250_S6250x10_S256x10_1_0_0_1_n_n_wf : DotDims.WF S256x6250 S6250x10 S256x10 [1] [0] [0] [1] [] []

variable [Facts₀]

def dot_S256x4096_S4096x6250_S256x6250_1_0_0_1_n_n : DotDims S256x4096 S4096x6250 S256x6250 where
  lhsContracting := [1]
  rhsContracting := [0]
  lhsNonContracting := [0]
  rhsNonContracting := [1]
  lhsBatch := []
  rhsBatch := []
  wf := dot_S256x4096_S4096x6250_S256x6250_1_0_0_1_n_n_wf
def dot_S256x6250_S6250x10_S256x10_1_0_0_1_n_n : DotDims S256x6250 S6250x10 S256x10 where
  lhsContracting := [1]
  rhsContracting := [0]
  lhsNonContracting := [0]
  rhsNonContracting := [1]
  lhsBatch := []
  rhsBatch := []
  wf := dot_S256x6250_S6250x10_S256x10_1_0_0_1_n_n_wf

class Facts : Prop extends Facts₀ where

variable [Facts]
-- ==== Proof.ChebSpec.lean ====
/-
  The function both programs compute, written once over the extended reals.

  For a row `zr` of `z` and column `k` of the 6250 weight columns, with `m = mask k`, the three masked inner
  products are `d i = ∑ⱼ zr j · (m j · Tᵢ k j)`; the recurrence's third term is
  `x₃ = (2 · d 3) · ((2 · d 2) · d 1 − T0 k) − d 1`, and the result at (b, o) is `(∑ₖ x₃ b k · C_w o k) + C_b o`.

  The kernel pads the column axis with zero rows from 6250 to 6272 = 49 · 128 and adds up one tile of 128
  columns per grid point. Over the extended reals addition is commutative and associative and `x · 0 = 0`
  for every `x`, so the tiles' running sum after all 49 points is the sum over the 6250 real columns: the
  22 padded columns contribute `x₃ · 0`. No finiteness is needed.
-/
import Idealize.ShloMosaic.Lib.ValueIdx

noncomputable section

open scoped BigOperators

namespace Cert.Cheb

open Idealize.ShloMosaic Idealize.ShloMosaic.ValueIdx

/-- The literal `2.0` of both programs, as the extended real its word denotes. -/
abbrev two : EReal := Ideal.ofBits .f32 0x40000000#32

/-- Row `k` of a matrix, as a function of the column. -/
abbrev rowOf {n d : Nat} (A : (⟨2, ![n, d]⟩ : Shape).Idx → EReal) (k : Fin n) : Fin d → EReal := fun j => A (ix2 k j)

/-- A row of `z` against a masked weight row: `∑ⱼ z j · (mask j · w j)`. -/
def mdot (zr mk w : Fin 4096 → EReal) : EReal := ∑ j, zr j * (mk j * w j)

/-- The recurrence's third term at one (row, column): `(2·d₃)·((2·d₂)·d₁ − t₀) − d₁`. -/
def term3 (zr mk a1 a2 a3 : Fin 4096 → EReal) (t0 : EReal) : EReal :=
  two * mdot zr mk a3 * (two * mdot zr mk a2 * mdot zr mk a1 - t0) - mdot zr mk a1

/-- Entry `k` of a table of 6250 entries continued by zeros: what the zero-padded table holds at column `k`. -/
def padRow {α : Type} [Zero α] (A : Fin 6250 → α) (k : ℕ) : α := if h : k < 6250 then A ⟨k, h⟩ else 0

/-- One column's contribution to the result at a fixed (row of `z`, output class), over the padded tables. -/
def summand (zr : Fin 4096 → EReal) (M A1 A2 A3 : Fin 6250 → Fin 4096 → EReal) (t0 w : Fin 6250 → EReal) (k : ℕ) : EReal :=
  term3 zr (padRow M k) (padRow A1 k) (padRow A2 k) (padRow A3 k) (padRow t0 k) * padRow w k

/-- The sum of the first `n` tiles of 128 columns each. -/
def tiles (f : ℕ → EReal) (n : ℕ) : EReal := ∑ s ∈ Finset.range n, ∑ q : Fin 128, f (128 * s + q.val)

/-- The contraction with `C_w` over the 6250 real columns, before the bias. -/
def contracted (zr : Fin 4096 → EReal) (M A1 A2 A3 : Fin 6250 → Fin 4096 → EReal) (t0 w : Fin 6250 → EReal) : EReal :=
  ∑ k : Fin 6250, term3 zr (M k) (A1 k) (A2 k) (A3 k) (t0 k) * w k

/-- The result array as one function of the eight argument arrays (in the programs' argument order:
    `z, T1, T2, T3, T0, C_w, C_b, mask`). -/
def out (z : (⟨2, ![256, 4096]⟩ : Shape).Idx → EReal) (T1 T2 T3 : (⟨2, ![6250, 4096]⟩ : Shape).Idx → EReal)
    (T0 : (⟨1, ![6250]⟩ : Shape).Idx → EReal) (Cw : (⟨2, ![10, 6250]⟩ : Shape).Idx → EReal)
    (Cb : (⟨1, ![10]⟩ : Shape).Idx → EReal) (mask : (⟨2, ![6250, 4096]⟩ : Shape).Idx → EReal) :
    (⟨2, ![256, 10]⟩ : Shape).Idx → EReal := fun i =>
  contracted (rowOf z (i 0)) (rowOf mask) (rowOf T1) (rowOf T2) (rowOf T3) (fun k => T0 (ix1 k)) (rowOf Cw (i 1))
    + Cb (ix1 (i 1))

/-! ## The tiles' sum is the sum over the real columns -/

theorem padRow_lt {α : Type} [Zero α] (A : Fin 6250 → α) (k : Fin 6250) : padRow A k.val = A k := by
  unfold padRow; rw [dif_pos k.isLt]

theorem padRow_ge {α : Type} [Zero α] (A : Fin 6250 → α) {k : ℕ} (h : 6250 ≤ k) : padRow A k = 0 := by
  unfold padRow; rw [dif_neg (by omega)]

/-- `n` tiles of 128 consecutive columns are the first `128 · n` columns: sums over the extended reals may be
    regrouped freely. -/
theorem tiles_eq_range (f : ℕ → EReal) (n : ℕ) : tiles f n = ∑ k ∈ Finset.range (128 * n), f k := by
  unfold tiles
  induction n with
  | zero => simp
  | succ n ih =>
    rw [Finset.sum_range_succ, ih, Nat.mul_succ, Finset.sum_range_add,
      Fin.sum_univ_eq_sum_range (fun q => f (128 * n + q)) 128]

/-- One more tile. -/
theorem tiles_succ (f : ℕ → EReal) (n : ℕ) : tiles f (n + 1) = tiles f n + ∑ q : Fin 128, f (128 * n + q.val) := by
  unfold tiles; rw [Finset.sum_range_succ]

theorem tiles_zero (f : ℕ → EReal) : tiles f 0 = 0 := by unfold tiles; simp

/-- All 49 tiles: the 6250 real columns, the 22 padded ones each contributing `x₃ · 0 = 0`. -/
theorem tiles_summand (zr : Fin 4096 → EReal) (M A1 A2 A3 : Fin 6250 → Fin 4096 → EReal) (t0 w : Fin 6250 → EReal) :
    tiles (summand zr M A1 A2 A3 t0 w) 49 = contracted zr M A1 A2 A3 t0 w := by
  rw [tiles_eq_range, show 128 * 49 = 6250 + 22 from rfl, Finset.sum_range_add]
  have htail : ∑ x ∈ Finset.range 22, summand zr M A1 A2 A3 t0 w (6250 + x) = 0 :=
    Finset.sum_eq_zero fun x _ => by unfold summand; rw [padRow_ge w (Nat.le_add_right _ _), mul_zero]
  rw [htail, add_zero, ← Fin.sum_univ_eq_sum_range]
  unfold contracted
  refine Finset.sum_congr rfl fun k _ => ?_
  unfold summand
  simp only [padRow_lt]

end Cert.Cheb

end
-- ==== Proof.RefValue.lean ====
/-
  The reference's result, operation by operation, is the specification's `out`.

  Each of its three `dot_general`s against a transposed masked table is the masked inner product `mdot` of a row
  of `z` with a row of the table; the elementwise lines assemble the recurrence's third term; the last
  `dot_general` contracts it with the transposed `C_w` over the 6250 columns, and the broadcast bias is added.
-/
import proofs.«174270_j30288109371710_1_alg».proof.Proof.Gen.ReferenceIdeal.Read
import proofs.«174270_j30288109371710_1_alg».proof.Proof.ChebSpec

noncomputable section

open scoped BigOperators

namespace Cert.ReferenceIdeal.Cheb

open Cert.ReferenceIdeal Cert.ReferenceIdeal.Read Idealize.ShloMosaic Idealize.ShloMosaic.ValueIdx Cert.Cheb

/-! The composed index maps of the layout operations, at explicit coordinates. -/

theorem l20 (b : Fin 256) (o : Fin 10) (k : Fin 6250) : lidx_main_v20 (ix2 b o) k = ix2 b k :=
  funext fun a => by match a with | ⟨0, _⟩ => rfl | ⟨1, _⟩ => rfl
theorem r20 (b : Fin 256) (o : Fin 10) (k : Fin 6250) : idx_main_v19 (ridx_main_v20 (ix2 b o) k) = ix2 o k :=
  funext fun a => by match a with | ⟨0, _⟩ => rfl | ⟨1, _⟩ => rfl
theorem l2 (b : Fin 256) (k : Fin 6250) (j : Fin 4096) : lidx_main_v2 (ix2 b k) j = ix2 b j :=
  funext fun a => by match a with | ⟨0, _⟩ => rfl | ⟨1, _⟩ => rfl
theorem r2 (b : Fin 256) (k : Fin 6250) (j : Fin 4096) : idx_main_v1 (ridx_main_v2 (ix2 b k) j) = ix2 k j :=
  funext fun a => by match a with | ⟨0, _⟩ => rfl | ⟨1, _⟩ => rfl
theorem l5 (b : Fin 256) (k : Fin 6250) (j : Fin 4096) : lidx_main_v5 (ix2 b k) j = ix2 b j :=
  funext fun a => by match a with | ⟨0, _⟩ => rfl | ⟨1, _⟩ => rfl
theorem r5 (b : Fin 256) (k : Fin 6250) (j : Fin 4096) : idx_main_v4 (ridx_main_v5 (ix2 b k) j) = ix2 k j :=
  funext fun a => by match a with | ⟨0, _⟩ => rfl | ⟨1, _⟩ => rfl
theorem l14 (b : Fin 256) (k : Fin 6250) (j : Fin 4096) : lidx_main_v14 (ix2 b k) j = ix2 b j :=
  funext fun a => by match a with | ⟨0, _⟩ => rfl | ⟨1, _⟩ => rfl
theorem r14 (b : Fin 256) (k : Fin 6250) (j : Fin 4096) : idx_main_v13 (ridx_main_v14 (ix2 b k) j) = ix2 k j :=
  funext fun a => by match a with | ⟨0, _⟩ => rfl | ⟨1, _⟩ => rfl
theorem i10 (b : Fin 256) (k : Fin 6250) : idx_main_v9 (idx_main_v10 (ix2 b k)) = ix1 k :=
  funext fun a => by match a with | ⟨0, _⟩ => rfl
theorem i22 (b : Fin 256) (o : Fin 10) : idx_main_v21 (idx_main_v22 (ix2 b o)) = ix1 o :=
  funext fun a => by match a with | ⟨0, _⟩ => rfl

/-- A masked table's product with `z`, at (row b, column k): the masked inner product of the two rows. -/
theorem dot1 (x0 : (⟨S256x4096, .f32⟩ : BufTy).Contents (Elt Ideal)) (x1 x7 : (⟨S6250x4096, .f32⟩ : BufTy).Contents (Elt Ideal))
    (b : Fin 256) (k : Fin 6250) :
    val_main_v2 (F := Ideal) x0 x1 x7 (ix2 b k) = mdot (rowOf x0 b) (rowOf x7 k) (rowOf x1 k) := by
  rw [val_main_v2_apply]
  unfold mdot
  refine Finset.sum_congr rfl fun j _ => ?_
  rw [val_main_v1_apply, val_main_v0_apply, l2, r2]
  rfl
theorem dot2 (x0 : (⟨S256x4096, .f32⟩ : BufTy).Contents (Elt Ideal)) (x2 x7 : (⟨S6250x4096, .f32⟩ : BufTy).Contents (Elt Ideal))
    (b : Fin 256) (k : Fin 6250) :
    val_main_v5 (F := Ideal) x0 x2 x7 (ix2 b k) = mdot (rowOf x0 b) (rowOf x7 k) (rowOf x2 k) := by
  rw [val_main_v5_apply]
  unfold mdot
  refine Finset.sum_congr rfl fun j _ => ?_
  rw [val_main_v4_apply, val_main_v3_apply, l5, r5]
  rfl
theorem dot3 (x0 : (⟨S256x4096, .f32⟩ : BufTy).Contents (Elt Ideal)) (x3 x7 : (⟨S6250x4096, .f32⟩ : BufTy).Contents (Elt Ideal))
    (b : Fin 256) (k : Fin 6250) :
    val_main_v14 (F := Ideal) x0 x3 x7 (ix2 b k) = mdot (rowOf x0 b) (rowOf x7 k) (rowOf x3 k) := by
  rw [val_main_v14_apply]
  unfold mdot
  refine Finset.sum_congr rfl fun j _ => ?_
  rw [val_main_v13_apply, val_main_v12_apply, l14, r14]
  rfl

/-- The recurrence's third term as the reference computes it. -/
theorem third (x0 : (⟨S256x4096, .f32⟩ : BufTy).Contents (Elt Ideal)) (x1 x2 x3 : (⟨S6250x4096, .f32⟩ : BufTy).Contents (Elt Ideal))
    (x4 : (⟨S6250, .f32⟩ : BufTy).Contents (Elt Ideal)) (x7 : (⟨S6250x4096, .f32⟩ : BufTy).Contents (Elt Ideal))
    (b : Fin 256) (k : Fin 6250) :
    val_main_v18 (F := Ideal) x0 x1 x2 x3 x4 x7 (ix2 b k)
      = term3 (rowOf x0 b) (rowOf x7 k) (rowOf x1 k) (rowOf x2 k) (rowOf x3 k) (x4 (ix1 k)) := by
  rw [val_main_v18_apply, val_main_v17_apply, val_main_v16_apply, val_main_v15_apply, val_main_cst_0_apply,
    val_main_v11_apply, val_main_v8_apply, val_main_v7_apply, val_main_v6_apply, val_main_cst_apply,
    val_main_v10_apply, val_main_v9_apply, i10, dot1, dot2, dot3]
  rfl

/-- The reference's result array is `out` of its arguments. -/
theorem reference_eq (x0 : (⟨S256x4096, .f32⟩ : BufTy).Contents (Elt Ideal)) (x1 x2 x3 : (⟨S6250x4096, .f32⟩ : BufTy).Contents (Elt Ideal))
    (x4 : (⟨S6250, .f32⟩ : BufTy).Contents (Elt Ideal)) (x5 : (⟨S10x6250, .f32⟩ : BufTy).Contents (Elt Ideal))
    (x6 : (⟨S10, .f32⟩ : BufTy).Contents (Elt Ideal)) (x7 : (⟨S6250x4096, .f32⟩ : BufTy).Contents (Elt Ideal)) :
    val_main_v23 (F := Ideal) x0 x1 x2 x3 x4 x5 x6 x7 = out x0 x1 x2 x3 x4 x5 x6 x7 := by
  funext i
  obtain ⟨b, o, rfl⟩ : ∃ (b : Fin 256) (o : Fin 10), i = ix2 b o := ⟨i 0, i 1, eq_ix2 i⟩
  rw [val_main_v23_apply, val_main_v20_apply, val_main_v22_apply, val_main_v21_apply, i22]
  unfold out contracted
  refine congrArg (· + x6 (ix1 o)) (Finset.sum_congr rfl fun k _ => ?_)
  rw [val_main_v19_apply, r20, l20, third]

end Cert.ReferenceIdeal.Cheb

end
-- ==== Proof.Pieces.lean ====
/-
  What one grid point leaves in the accumulator and in the output block, as values.

  The body loads the seven input blocks, forms the tile's third recurrence term and its contraction with the
  tile of `C_w`, adds that to the accumulator scratch and copies the accumulator to the output block. At the
  first point the accumulator is first reset to zeros. So after a point both buffers hold
  `step blocks acc`, with `acc` the zero block at the first point and what the point before left otherwise.
-/
import proofs.«174270_j30288109371710_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Acc

open Cert.KernelIdeal Cert.KernelIdeal.Gen

variable {F : FTy → Type} [FloatOps F]

theorem hz : (![0, 0] : Fin 2 → Nat) = fun _ => 0 := funext fun a => by fin_cases a <;> rfl

/-- A whole-buffer load after a whole-buffer store, whatever was stored before, reads the stored value. -/
theorem readCov_last {sig : RefSig} {κ : Kind} {sp : Space} {S : Shape} {e : EltTy} (v : View sig κ sp S e)
    {off : Fin S.rank → Nat} (h : off = fun _ => 0) (inb : ∀ a, off a + S.size a ≤ S.size a)
    (w : S.Idx → Elt F e) (L : List (View.Piece (Elt F) S e)) :
    v.readCov ((⟨Rect.unit off S.size inb, w⟩ : View.Piece (Elt F) S e) :: L) (Rect.unit off S.size inb).toLoadRect = w := by
  subst h
  rw [View.readCov_eq_canon_ld _ _ _ (fun y => ⟨_, List.mem_cons_self .., View.mem_set_unit_zero rfl inb y⟩),
    View.canon_cons_unit_zero rfl, View.ld_unit_zero rfl]

/-- One tile's update: the accumulator plus the tile's contraction, from the point's seven input blocks. -/
abbrev step (x0 : Vec F S256x4096 .bf16) (x1 : Vec F S128x4096 .bf16) (x2 : Vec F S128x4096 .bf16) (x3 : Vec F S128x4096 .bf16) (x4 : Vec F S128x4096 .bf16) (x5 : Vec F S1x128 .f32) (x6 : Vec F S10x128 .f32) (acc : Vec F S256x10 .f32) : Vec F S256x10 .f32 :=
  k0_pay1 (k0_pay3 x0 x1 x2 x3 x4 x5) (k0_pay4 x6) acc

/-- The zero block the first point resets the accumulator to. -/
abbrev zeros : Vec F S256x10 .f32 := k0_pay2

/-- A later point: the accumulator, found at `xs0`, ends at its update. -/
theorem sout_B (c : Dev nD) (i : grid0.Coords) (arg1 : Memref sig .tc .vmem S256x4096 .bf16) (harg1 : arg1.IsWhole) (arg2 : Memref sig .tc .vmem S128x4096 .bf16) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S128x4096 .bf16) (harg5 : arg5.IsWhole) (arg6 : Memref sig .tc .vmem S1x128 .f32) (harg6 : arg6.IsWhole) (arg7 : Memref sig .tc .vmem S10x128 .f32) (harg7 : arg7.IsWhole) (arg8 : Memref sig .tc .vmem S256x10 .f32) (harg8 : arg8.IsWhole) (arg9 : Memref sig .tc .vmem S256x10 .f32) (harg9 : arg9.IsWhole) (hc0 : ¬cond0_0 i) (x0 : Vec F S256x4096 .bf16) (x1 : Vec F S128x4096 .bf16) (x2 : Vec F S128x4096 .bf16) (x3 : Vec F S128x4096 .bf16) (x4 : Vec F S128x4096 .bf16) (x5 : Vec F S1x128 .f32) (x6 : Vec F S10x128 .f32) (xs0 : Vec F S256x10 .f32) :
    sout0_B_0 c i arg1 harg1 arg2 harg2 arg3 harg3 arg4 harg4 arg5 harg5 arg6 harg6 arg7 harg7 arg8 harg8 arg9 harg9 hc0 x0 x1 x2 x3 x4 x5 x6 xs0 = step x0 x1 x2 x3 x4 x5 x6 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 hc0 x0 x1 x2 x3 x4 x5 x6 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg9.read_unread, View.ld_unit_zero (S := S256x4096) hz, View.ld_unit_zero (S := S128x4096) hz, View.ld_unit_zero (S := S1x128) hz, View.ld_unit_zero (S := S10x128) hz, View.ld_unit_zero (S := S256x10) hz]

/-- A later point: the output block ends at the updated accumulator, read back. -/
theorem out_B (c : Dev nD) (i : grid0.Coords) (arg1 : Memref sig .tc .vmem S256x4096 .bf16) (harg1 : arg1.IsWhole) (arg2 : Memref sig .tc .vmem S128x4096 .bf16) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S128x4096 .bf16) (harg5 : arg5.IsWhole) (arg6 : Memref sig .tc .vmem S1x128 .f32) (harg6 : arg6.IsWhole) (arg7 : Memref sig .tc .vmem S10x128 .f32) (harg7 : arg7.IsWhole) (arg8 : Memref sig .tc .vmem S256x10 .f32) (harg8 : arg8.IsWhole) (arg9 : Memref sig .tc .vmem S256x10 .f32) (harg9 : arg9.IsWhole) (hc0 : ¬cond0_0 i) (x0 : Vec F S256x4096 .bf16) (x1 : Vec F S128x4096 .bf16) (x2 : Vec F S128x4096 .bf16) (x3 : Vec F S128x4096 .bf16) (x4 : Vec F S128x4096 .bf16) (x5 : Vec F S1x128 .f32) (x6 : Vec F S10x128 .f32) (xs0 : Vec F S256x10 .f32) :
    out0_B_7 c i arg1 harg1 arg2 harg2 arg3 harg3 arg4 harg4 arg5 harg5 arg6 harg6 arg7 harg7 arg8 harg8 arg9 harg9 hc0 x0 x1 x2 x3 x4 x5 x6 xs0 = step x0 x1 x2 x3 x4 x5 x6 xs0 := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 x5 x6 xs0)]
  unfold kernelRun0_B
  dsimp only
  sl_unfold_words
  rw [View.canon_unit_zero hz, View.readCov_unit_zero (S := S256x10) _ hz]
  simp only [View.readAt_eq_ld, harg1.read_unread, harg2.read_unread, harg3.read_unread, harg4.read_unread, harg5.read_unread, harg6.read_unread, harg7.read_unread, harg9.read_unread, View.ld_unit_zero (S := S256x4096) hz, View.ld_unit_zero (S := S128x4096) hz, View.ld_unit_zero (S := S1x128) hz, View.ld_unit_zero (S := S10x128) hz, View.ld_unit_zero (S := S256x10) hz]

/-- The first point: the accumulator is reset, read back, and ends at the update of the zero block. -/
theorem sout_A (c : Dev nD) (i : grid0.Coords) (arg1 : Memref sig .tc .vmem S256x4096 .bf16) (harg1 : arg1.IsWhole) (arg2 : Memref sig .tc .vmem S128x4096 .bf16) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S128x4096 .bf16) (harg5 : arg5.IsWhole) (arg6 : Memref sig .tc .vmem S1x128 .f32) (harg6 : arg6.IsWhole) (arg7 : Memref sig .tc .vmem S10x128 .f32) (harg7 : arg7.IsWhole) (arg8 : Memref sig .tc .vmem S256x10 .f32) (harg8 : arg8.IsWhole) (arg9 : Memref sig .tc .vmem S256x10 .f32) (harg9 : arg9.IsWhole) (hc0 : cond0_0 i) (x0 : Vec F S256x4096 .bf16) (x1 : Vec F S128x4096 .bf16) (x2 : Vec F S128x4096 .bf16) (x3 : Vec F S128x4096 .bf16) (x4 : Vec F S128x4096 .bf16) (x5 : Vec F S1x128 .f32) (x6 : Vec F S10x128 .f32) :
    sout0_A_0 c i arg1 harg1 arg2 harg2 arg3 harg3 arg4 harg4 arg5 harg5 arg6 harg6 arg7 harg7 arg8 harg8 arg9 harg9 hc0 x0 x1 x2 x3 x4 x5 x6 = step x0 x1 x2 x3 x4 x5 x6 zeros := by
  unfold sout0_A_0
  rw [View.read_writes_eq_canon _ _ _ (scover0_A_0 c i arg1 harg1 arg2 harg2 arg3 harg3 arg4 harg4 arg5 harg5 arg6 harg6 arg7 harg7 arg8 harg8 arg9 harg9 hc0 x0 x1 x2 x3 x4 x5 x6)]
  unfold kernelRun0_A
  dsimp only
  sl_unfold_words
  rw [View.canon_cons_unit_zero (S := S256x10) hz, View.readCov_unit_zero (S := S256x10) _ hz]
  simp only [View.readAt_eq_ld, harg1.read_unread, harg2.read_unread, harg3.read_unread, harg4.read_unread, harg5.read_unread, harg6.read_unread, harg7.read_unread, View.ld_unit_zero (S := S256x4096) hz, View.ld_unit_zero (S := S128x4096) hz, View.ld_unit_zero (S := S1x128) hz, View.ld_unit_zero (S := S10x128) hz, View.ld_unit_zero (S := S256x10) hz]

/-- The first point: the output block ends at the same value. -/
theorem out_A (c : Dev nD) (i : grid0.Coords) (arg1 : Memref sig .tc .vmem S256x4096 .bf16) (harg1 : arg1.IsWhole) (arg2 : Memref sig .tc .vmem S128x4096 .bf16) (harg2 : arg2.IsWhole) (arg3 : Memref sig .tc .vmem S128x4096 .bf16) (harg3 : arg3.IsWhole) (arg4 : Memref sig .tc .vmem S128x4096 .bf16) (harg4 : arg4.IsWhole) (arg5 : Memref sig .tc .vmem S128x4096 .bf16) (harg5 : arg5.IsWhole) (arg6 : Memref sig .tc .vmem S1x128 .f32) (harg6 : arg6.IsWhole) (arg7 : Memref sig .tc .vmem S10x128 .f32) (harg7 : arg7.IsWhole) (arg8 : Memref sig .tc .vmem S256x10 .f32) (harg8 : arg8.IsWhole) (arg9 : Memref sig .tc .vmem S256x10 .f32) (harg9 : arg9.IsWhole) (hc0 : cond0_0 i) (x0 : Vec F S256x4096 .bf16) (x1 : Vec F S128x4096 .bf16) (x2 : Vec F S128x4096 .bf16) (x3 : Vec F S128x4096 .bf16) (x4 : Vec F S128x4096 .bf16) (x5 : Vec F S1x128 .f32) (x6 : Vec F S10x128 .f32) :
    out0_A_7 c i arg1 harg1 arg2 harg2 arg3 harg3 arg4 harg4 arg5 harg5 arg6 harg6 arg7 harg7 arg8 harg8 arg9 harg9 hc0 x0 x1 x2 x3 x4 x5 x6 = step x0 x1 x2 x3 x4 x5 x6 zeros := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4 x5 x6)]
  unfold kernelRun0_A
  dsimp only
  sl_unfold_words
  rw [View.canon_unit_zero hz, readCov_last _ hz, View.readCov_unit_zero (S := S256x10) _ hz]
  simp only [View.readAt_eq_ld, harg1.read_unread, harg2.read_unread, harg3.read_unread, harg4.read_unread, harg5.read_unread, harg6.read_unread, harg7.read_unread, View.ld_unit_zero (S := S256x4096) hz, View.ld_unit_zero (S := S128x4096) hz, View.ld_unit_zero (S := S1x128) hz, View.ld_unit_zero (S := S10x128) hz, View.ld_unit_zero (S := S256x10) hz]

end Cert.KernelIdeal.Acc

end
-- ==== Proof.Payload.lean ====
/-
  The kernel body's arithmetic at one index, over the extended reals.

  From the point's input blocks — `z` whole, a tile of 128 rows of `mask`, `T1`, `T2`, `T3`, the tile of `T0`
  as a row, the tile of `C_w` — the body forms `x₃ b q = term3 (z b) (mask q) (T1 q) (T2 q) (T3 q) (T0 q)` for
  the tile's 128 columns `q` (each `tpu.matmul` into a zero accumulator is a plain sum over the 4096 inputs;
  the format changes are identities), contracts it with the transposed tile of `C_w` over `q`, and adds the
  result to the accumulator.
-/
import proofs.«174270_j30288109371710_1_alg».proof.Proof.Gen.KernelIdeal.Skeleton
import proofs.«174270_j30288109371710_1_alg».proof.Proof.ChebSpec
import Idealize.ShloMosaic.Lib.Pipeline.Value
import Idealize.ShloMosaic.Lib.ValueIdx
import Idealize.ShloMosaic.PureOps.Ideal.Laws

noncomputable section

open scoped BigOperators

namespace Cert.KernelIdeal.Tile

open Cert.KernelIdeal Cert.KernelIdeal.Gen Idealize.ShloMosaic Idealize.ShloMosaic.ValueIdx Cert.Cheb

/-! ## The two matrix products as sums -/

theorem lhsA_0 (i : S256x128.Idx) (q : dot_S256x4096_S4096x128_S256x128_1_0_0_1_n_n.contr.Idx) :
    (dot_S256x4096_S4096x128_S256x128_1_0_0_1_n_n.lhsIdx i q 0).val = (i 0).val := by
  unfold DotDims.lhsIdx
  rw [dif_neg (show ¬(0 : Fin S256x4096.rank) ∈ dot_S256x4096_S4096x128_S256x128_1_0_0_1_n_n.lhsBatch by decide), dif_pos (show (0 : Fin S256x4096.rank) ∈ dot_S256x4096_S4096x128_S256x128_1_0_0_1_n_n.lhsNonContracting by decide)]
  rfl
theorem lhsA_1 (i : S256x128.Idx) (q : dot_S256x4096_S4096x128_S256x128_1_0_0_1_n_n.contr.Idx) :
    (dot_S256x4096_S4096x128_S256x128_1_0_0_1_n_n.lhsIdx i q 1).val = (q ⟨0, by decide⟩).val :=
  dot_S256x4096_S4096x128_S256x128_1_0_0_1_n_n.lhsIdx_val_of_single rfl i q
theorem rhsA_0 (i : S256x128.Idx) (q : dot_S256x4096_S4096x128_S256x128_1_0_0_1_n_n.contr.Idx) :
    (dot_S256x4096_S4096x128_S256x128_1_0_0_1_n_n.rhsIdx i q 0).val = (q ⟨0, by decide⟩).val :=
  dot_S256x4096_S4096x128_S256x128_1_0_0_1_n_n.rhsIdx_val_of_single rfl i q
theorem rhsA_1 (i : S256x128.Idx) (q : dot_S256x4096_S4096x128_S256x128_1_0_0_1_n_n.contr.Idx) :
    (dot_S256x4096_S4096x128_S256x128_1_0_0_1_n_n.rhsIdx i q 1).val = (i 1).val := by
  unfold DotDims.rhsIdx
  rw [dif_neg (show ¬(1 : Fin S4096x128.rank) ∈ dot_S256x4096_S4096x128_S256x128_1_0_0_1_n_n.rhsBatch by decide), dif_pos (show (1 : Fin S4096x128.rank) ∈ dot_S256x4096_S4096x128_S256x128_1_0_0_1_n_n.rhsNonContracting by decide)]
  rfl

/-- The [256,4096] × [4096,128] product into zeros, at (b, q): the sum over the 4096 inputs. -/
theorem matmulA_apply (l : FVec Ideal S256x4096 .bf16) (r : FVec Ideal S4096x128 .bf16) (b : Fin 256) (q : Fin 128) :
    matmul dot_S256x4096_S4096x128_S256x128_1_0_0_1_n_n none l r (constant S256x128 .f32 0x00000000#32) (ix2 b q)
      = ∑ j : Fin 4096, l (ix2 b j) * r (ix2 j q) := by
  show FloatOps.matmul dot_S256x4096_S4096x128_S256x128_1_0_0_1_n_n none l r (constant S256x128 .f32 0x00000000#32) (ix2 b q) = _
  rw [Ideal.matmul_constant_zero_apply, ← Equiv.sum_comp (ValueIdx.contrEquiv1 dot_S256x4096_S4096x128_S256x128_1_0_0_1_n_n 4096 rfl rfl).symm]
  refine Finset.sum_congr rfl fun k _ => ?_
  have hk := ValueIdx.contrEquiv1_symm_val dot_S256x4096_S4096x128_S256x128_1_0_0_1_n_n 4096 rfl rfl k
  have el : dot_S256x4096_S4096x128_S256x128_1_0_0_1_n_n.lhsIdx (ix2 b q) ((ValueIdx.contrEquiv1 dot_S256x4096_S4096x128_S256x128_1_0_0_1_n_n 4096 rfl rfl).symm k) = ix2 b k := funext fun a => Fin.ext (by
    match a with
    | ⟨0, _⟩ => exact lhsA_0 _ _
    | ⟨1, _⟩ => exact (lhsA_1 _ _).trans hk)
  have er : dot_S256x4096_S4096x128_S256x128_1_0_0_1_n_n.rhsIdx (ix2 b q) ((ValueIdx.contrEquiv1 dot_S256x4096_S4096x128_S256x128_1_0_0_1_n_n 4096 rfl rfl).symm k) = ix2 k q := funext fun a => Fin.ext (by
    match a with
    | ⟨0, _⟩ => exact (rhsA_0 _ _).trans hk
    | ⟨1, _⟩ => exact rhsA_1 _ _)
  rw [el, er]

theorem lhsB_0 (i : S256x10.Idx) (q : dot_S256x128_S128x10_S256x10_1_0_0_1_n_n.contr.Idx) :
    (dot_S256x128_S128x10_S256x10_1_0_0_1_n_n.lhsIdx i q 0).val = (i 0).val := by
  unfold DotDims.lhsIdx
  rw [dif_neg (show ¬(0 : Fin S256x128.rank) ∈ dot_S256x128_S128x10_S256x10_1_0_0_1_n_n.lhsBatch by decide), dif_pos (show (0 : Fin S256x128.rank) ∈ dot_S256x128_S128x10_S256x10_1_0_0_1_n_n.lhsNonContracting by decide)]
  rfl
theorem lhsB_1 (i : S256x10.Idx) (q : dot_S256x128_S128x10_S256x10_1_0_0_1_n_n.contr.Idx) :
    (dot_S256x128_S128x10_S256x10_1_0_0_1_n_n.lhsIdx i q 1).val = (q ⟨0, by decide⟩).val :=
  dot_S256x128_S128x10_S256x10_1_0_0_1_n_n.lhsIdx_val_of_single rfl i q
theorem rhsB_0 (i : S256x10.Idx) (q : dot_S256x128_S128x10_S256x10_1_0_0_1_n_n.contr.Idx) :
    (dot_S256x128_S128x10_S256x10_1_0_0_1_n_n.rhsIdx i q 0).val = (q ⟨0, by decide⟩).val :=
  dot_S256x128_S128x10_S256x10_1_0_0_1_n_n.rhsIdx_val_of_single rfl i q
theorem rhsB_1 (i : S256x10.Idx) (q : dot_S256x128_S128x10_S256x10_1_0_0_1_n_n.contr.Idx) :
    (dot_S256x128_S128x10_S256x10_1_0_0_1_n_n.rhsIdx i q 1).val = (i 1).val := by
  unfold DotDims.rhsIdx
  rw [dif_neg (show ¬(1 : Fin S128x10.rank) ∈ dot_S256x128_S128x10_S256x10_1_0_0_1_n_n.rhsBatch by decide), dif_pos (show (1 : Fin S128x10.rank) ∈ dot_S256x128_S128x10_S256x10_1_0_0_1_n_n.rhsNonContracting by decide)]
  rfl

/-- The [256,128] × [128,10] product into zeros, at (b, o): the sum over the tile's 128 columns. -/
theorem matmulB_apply (l : FVec Ideal S256x128 .bf16) (r : FVec Ideal S128x10 .bf16) (b : Fin 256) (o : Fin 10) :
    matmul dot_S256x128_S128x10_S256x10_1_0_0_1_n_n none l r (constant S256x10 .f32 0x00000000#32) (ix2 b o)
      = ∑ q : Fin 128, l (ix2 b q) * r (ix2 q o) := by
  show FloatOps.matmul dot_S256x128_S128x10_S256x10_1_0_0_1_n_n none l r (constant S256x10 .f32 0x00000000#32) (ix2 b o) = _
  rw [Ideal.matmul_constant_zero_apply, ← Equiv.sum_comp (ValueIdx.contrEquiv1 dot_S256x128_S128x10_S256x10_1_0_0_1_n_n 128 rfl rfl).symm]
  refine Finset.sum_congr rfl fun k _ => ?_
  have hk := ValueIdx.contrEquiv1_symm_val dot_S256x128_S128x10_S256x10_1_0_0_1_n_n 128 rfl rfl k
  have el : dot_S256x128_S128x10_S256x10_1_0_0_1_n_n.lhsIdx (ix2 b o) ((ValueIdx.contrEquiv1 dot_S256x128_S128x10_S256x10_1_0_0_1_n_n 128 rfl rfl).symm k) = ix2 b k := funext fun a => Fin.ext (by
    match a with
    | ⟨0, _⟩ => exact lhsB_0 _ _
    | ⟨1, _⟩ => exact (lhsB_1 _ _).trans hk)
  have er : dot_S256x128_S128x10_S256x10_1_0_0_1_n_n.rhsIdx (ix2 b o) ((ValueIdx.contrEquiv1 dot_S256x128_S128x10_S256x10_1_0_0_1_n_n 128 rfl rfl).symm k) = ix2 k o := funext fun a => Fin.ext (by
    match a with
    | ⟨0, _⟩ => exact (rhsB_0 _ _).trans hk
    | ⟨1, _⟩ => exact rhsB_1 _ _)
  rw [el, er]

/-! ## The layout operations at an index -/

/-- A transposed weight tile at (input j, column q) is the tile at (q, j). -/
theorem transposeW_apply (v : FVec Ideal S128x4096 .bf16) (j : Fin 4096) (q : Fin 128) :
    transpose S4096x128 [1, 0] v transposes_S128x4096_p1_0_S4096x128 (ix2 j q) = v (ix2 q j) :=
  transpose_apply [1, 0] v transposes_S128x4096_p1_0_S4096x128 (ix2 j q) (ix2 q j) (fun b => match b with
    | ⟨0, _⟩ => rfl
    | ⟨1, _⟩ => rfl)

/-- The transposed tile of `C_w` at (column q, class o) is the tile at (o, q). -/
theorem transposeC_apply (v : FVec Ideal S10x128 .f32) (q : Fin 128) (o : Fin 10) :
    transpose S128x10 [1, 0] v transposes_S10x128_p1_0_S128x10 (ix2 q o) = v (ix2 o q) :=
  transpose_apply [1, 0] v transposes_S10x128_p1_0_S128x10 (ix2 q o) (ix2 o q) (fun b => match b with
    | ⟨0, _⟩ => rfl
    | ⟨1, _⟩ => rfl)

/-- The row of `T0`'s tile broadcast down the 256 rows, at (b, q): its entry q. -/
theorem broadcastT0_apply (v : FVec Ideal S1x128 .f32) (b : Fin 256) (q : Fin 128) :
    broadcastTo S256x128 v broadcasts_S1x128_S256x128 (ix2 b q) = v (ix2 (0 : Fin 1) q) :=
  broadcastTo_apply v broadcasts_S1x128_S256x128 (ix2 b q) (ix2 (0 : Fin 1) q) (fun a => match a with
    | ⟨0, _⟩ => by show (0 : Nat) = if (1 : Nat) = 1 then 0 else _; rw [if_pos rfl]
    | ⟨1, _⟩ => by show q.val = if (128 : Nat) = 1 then 0 else _; rw [if_neg (by decide)]; rfl)

/-! ## The payloads -/

/-- `z` against a transposed masked weight tile, at (row b, tile column q): the masked inner product of the rows. -/
theorem maskedDot_apply (z : FVec Ideal S256x4096 .bf16) (mk w : FVec Ideal S128x4096 .bf16) (b : Fin 256) (q : Fin 128) :
    (∑ j : Fin 4096, z (ix2 b j) * transpose S4096x128 [1, 0] (mulf mk w) transposes_S128x4096_p1_0_S4096x128 (ix2 j q))
      = mdot (rowOf z b) (rowOf mk q) (rowOf w q) := by
  unfold mdot
  refine Finset.sum_congr rfl fun j _ => ?_
  rw [transposeW_apply, mulf_apply]

/-- The tile's third recurrence term at (row b, tile column q). -/
theorem third_apply (x0 : Vec Ideal S256x4096 .bf16) (x1 x2 x3 x4 : Vec Ideal S128x4096 .bf16) (x5 : Vec Ideal S1x128 .f32)
    (b : Fin 256) (q : Fin 128) :
    k0_pay3 x0 x1 x2 x3 x4 x5 (ix2 b q)
      = term3 (rowOf x0 b) (rowOf x1 q) (rowOf x2 q) (rowOf x3 q) (rowOf x4 q) (x5 (ix2 (0 : Fin 1) q)) := by
  unfold k0_pay3
  simp only [shapeCast_self]
  rw [truncf_apply, subf_apply, mulf_apply, mulf_apply, subf_apply, mulf_apply, mulf_apply, broadcastT0_apply,
    matmulA_apply, matmulA_apply, matmulA_apply]
  rw [maskedDot_apply x0 x1 x4, maskedDot_apply x0 x1 x3, maskedDot_apply x0 x1 x2]
  rfl

/-- One tile's update of the accumulator at (row b, class o). -/
theorem step_apply (x0 : Vec Ideal S256x4096 .bf16) (x1 x2 x3 x4 : Vec Ideal S128x4096 .bf16) (x5 : Vec Ideal S1x128 .f32)
    (x6 : Vec Ideal S10x128 .f32) (acc : Vec Ideal S256x10 .f32) (b : Fin 256) (o : Fin 10) :
    k0_pay1 (k0_pay3 x0 x1 x2 x3 x4 x5) (k0_pay4 x6) acc (ix2 b o)
      = acc (ix2 b o) + ∑ q : Fin 128,
          term3 (rowOf x0 b) (rowOf x1 q) (rowOf x2 q) (rowOf x3 q) (rowOf x4 q) (x5 (ix2 (0 : Fin 1) q)) * x6 (ix2 o q) := by
  unfold k0_pay1 k0_pay4
  simp only [shapeCast_self]
  rw [addf_apply, matmulB_apply]
  refine congrArg (acc (ix2 b o) + ·) (Finset.sum_congr rfl fun q _ => ?_)
  rw [third_apply, truncf_apply, transposeC_apply]

/-- The reset block is zero everywhere. -/
theorem zeros_apply (i : S256x10.Idx) : (k0_pay2 (F := Ideal)) i = 0 := by
  unfold k0_pay2
  simp only [shapeCast_self]
  show Ideal.ofBits .f32 0x00000000#32 = 0
  exact Ideal.ofBits_zero_f32

end Cert.KernelIdeal.Tile

end
-- ==== Proof.Blocks.lean ====
/-
  The point's input blocks, read off the argument arrays.

  Before the kernel region @main pads each of the four 6250-row tables with 22 zero rows (the padding value
  is the integer zero converted, which is the extended real 0), `T0` with 22 zeros (then laid out as one
  row), and `C_w` with 22 zero columns; `z` is only reformatted, which changes nothing over the extended reals.
  At grid point `t` the table windows hold rows `128·t … 128·t + 127` of the padded tables, the `T0` and `C_w`
  windows the same columns, and the `z` window all of `z`. So each block entry is an entry of an argument
  array where the column `128·t + q` is a real one, and zero where it is padding: `padRow`.
-/
import proofs.«174270_j30288109371710_1_alg».proof.Proof.Gen.KernelIdeal.Frame
import proofs.«174270_j30288109371710_1_alg».proof.Proof.ChebSpec
import Idealize.ShloMosaic.Lib.Pipeline.Value
import Idealize.ShloMosaic.Lib.KernelVsHost
import Idealize.ShloMosaic.Lib.StableHlo.Run
import Idealize.ShloMosaic.Lib.Tactic

set_option maxRecDepth 16384

noncomputable section

open Idealize.ShloMosaic Idealize.ShloMosaic.TcCoe Idealize.SL.Sem

namespace Cert.KernelIdeal.Blk

open Cert.KernelIdeal Cert.KernelIdeal.Gen Idealize.ShloMosaic.ValueIdx Cert.Cheb Idealize.ShloMosaic.StableHlo

variable (m : (ℓ : Loc nD τ sig) → Buf (Elt Ideal) ℓ)

/-! ## The argument arrays, at their literal types -/

abbrev zA (c : Dev nD) : FVec Ideal S256x4096 .f32 := m ((c : Thread nD τ).loc main_arg0)
abbrev T1A (c : Dev nD) : FVec Ideal S6250x4096 .f32 := m ((c : Thread nD τ).loc main_arg1)
abbrev T2A (c : Dev nD) : FVec Ideal S6250x4096 .f32 := m ((c : Thread nD τ).loc main_arg2)
abbrev T3A (c : Dev nD) : FVec Ideal S6250x4096 .f32 := m ((c : Thread nD τ).loc main_arg3)
abbrev T0A (c : Dev nD) : FVec Ideal S6250 .f32 := m ((c : Thread nD τ).loc main_arg4)
abbrev CwA (c : Dev nD) : FVec Ideal S10x6250 .f32 := m ((c : Thread nD τ).loc main_arg5)
abbrev CbA (c : Dev nD) : FVec Ideal S10 .f32 := m ((c : Thread nD τ).loc main_arg6)
abbrev maskA (c : Dev nD) : FVec Ideal S6250x4096 .f32 := m ((c : Thread nD τ).loc main_arg7)

/-- The padding value: the integer zero converted to a float. -/
abbrev padVal : FVec Ideal S_ .f32 := sitofp (F := Ideal) .f32 (constantI S_ 32 0#32)

theorem padVal_apply (i : S_.Idx) : padVal i = 0 := sitofp_zero

/-! ## What the host lines before the region leave in the windows' arrays -/

theorem V_z (c : Dev nD) : (V m c main_v0 : S256x4096.Idx → EReal) = (truncf .bf16 (zA m c) bitsLt_bf16_f32 : FVec Ideal S256x4096 .bf16) := by
  dsimp only [V, V0]
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results

theorem V_mask (c : Dev nD) : (V m c main_v2 : S6272x4096.Idx → EReal)
    = truncf .bf16 (pad S6272x4096 ![0, 0] ![22, 0] ![0, 0] (maskA m c) padVal pads_S6250x4096_S6272x4096_0220_000 h_S_) bitsLt_bf16_f32 := by
  dsimp only [V, V0]
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results
  rfl

theorem V_T1 (c : Dev nD) : (V m c main_v4 : S6272x4096.Idx → EReal)
    = truncf .bf16 (pad S6272x4096 ![0, 0] ![22, 0] ![0, 0] (T1A m c) padVal pads_S6250x4096_S6272x4096_0220_000 h_S_) bitsLt_bf16_f32 := by
  dsimp only [V, V0]
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results
  rfl

theorem V_T2 (c : Dev nD) : (V m c main_v6 : S6272x4096.Idx → EReal)
    = truncf .bf16 (pad S6272x4096 ![0, 0] ![22, 0] ![0, 0] (T2A m c) padVal pads_S6250x4096_S6272x4096_0220_000 h_S_) bitsLt_bf16_f32 := by
  dsimp only [V, V0]
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results
  rfl

theorem V_T3 (c : Dev nD) : (V m c main_v8 : S6272x4096.Idx → EReal)
    = truncf .bf16 (pad S6272x4096 ![0, 0] ![22, 0] ![0, 0] (T3A m c) padVal pads_S6250x4096_S6272x4096_0220_000 h_S_) bitsLt_bf16_f32 := by
  dsimp only [V, V0]
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results
  rfl

theorem V_T0 (c : Dev nD) : (V m c main_v10 : S1x6272.Idx → EReal)
    = shapeCast S1x6272 (pad S6272 ![0] ![22] ![0] (T0A m c) padVal pads_S6250_S6272_0220 h_S_) shapeCasts_S6272_S1x6272 := by
  dsimp only [V, V0]
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results
  rfl

theorem V_Cw (c : Dev nD) : (V m c main_v11 : S10x6272.Idx → EReal)
    = pad S10x6272 ![0, 0] ![0, 22] ![0, 0] (CwA m c) padVal pads_S10x6250_S10x6272_000_0220 h_S_ := by
  dsimp only [V, V0]
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results
  rfl

/-! ## The padded arrays at an index -/

/-- A table padded with 22 zero rows, at (row k, input j): the table's row k continued by zeros. -/
theorem padRows_apply (A : S6250x4096.Idx → EReal) (k : Fin 6272) (j : Fin 4096) :
    pad S6272x4096 ![0, 0] ![22, 0] ![0, 0] A padVal pads_S6250x4096_S6272x4096_0220_000 h_S_ (ix2 k j)
      = padRow (rowOf A) k.val j := by
  unfold padRow
  by_cases h : k.val < 6250
  · rw [dif_pos h]
    exact pad_apply_of_inside _ _ _ A padVal _ _ (ix2 k j) (ix2 ⟨k.val, h⟩ j) (fun a => match a with
      | ⟨0, _⟩ => by show k.val = 0 + k.val * (0 + 1); omega
      | ⟨1, _⟩ => by show j.val = 0 + j.val * (0 + 1); omega)
  · rw [dif_neg h, pad_apply_of_not_inside _ _ _ A padVal _ _ (ix2 k j) 0 (by
      show ¬(0 ≤ k.val ∧ (k.val - 0) % (0 + 1) = 0 ∧ (k.val - 0) / (0 + 1) < 6250); omega)]
    exact padVal_apply _

/-- `T0` padded with 22 zeros and laid out as one row, at column k. -/
theorem padT0_apply (A : S6250.Idx → EReal) (k : Fin 6272) :
    shapeCast S1x6272 (pad S6272 ![0] ![22] ![0] A padVal pads_S6250_S6272_0220 h_S_) shapeCasts_S6272_S1x6272 (ix2 (0 : Fin 1) k)
      = padRow (fun k' => A (ix1 k')) k.val := by
  rw [shapeCast_apply _ shapeCasts_S6272_S1x6272 (ix2 (0 : Fin 1) k) (ix1 k) (by
    rw [Shape.rowMajor_val_one, Shape.rowMajor_val_two]; show k.val = 0 * 6272 + k.val; omega)]
  unfold padRow
  by_cases h : k.val < 6250
  · rw [dif_pos h]
    exact pad_apply_of_inside _ _ _ A padVal _ _ (ix1 k) (ix1 ⟨k.val, h⟩) (fun a => match a with
      | ⟨0, _⟩ => by show k.val = 0 + k.val * (0 + 1); omega)
  · rw [dif_neg h, pad_apply_of_not_inside _ _ _ A padVal _ _ (ix1 k) 0 (by
      show ¬(0 ≤ k.val ∧ (k.val - 0) % (0 + 1) = 0 ∧ (k.val - 0) / (0 + 1) < 6250); omega)]
    exact padVal_apply _

/-- `C_w` padded with 22 zero columns, at (class o, column k). -/
theorem padCols_apply (A : S10x6250.Idx → EReal) (o : Fin 10) (k : Fin 6272) :
    pad S10x6272 ![0, 0] ![0, 22] ![0, 0] A padVal pads_S10x6250_S10x6272_000_0220 h_S_ (ix2 o k)
      = padRow (rowOf A o) k.val := by
  unfold padRow
  by_cases h : k.val < 6250
  · rw [dif_pos h]
    exact pad_apply_of_inside _ _ _ A padVal _ _ (ix2 o k) (ix2 o ⟨k.val, h⟩) (fun a => match a with
      | ⟨0, _⟩ => by show o.val = 0 + o.val * (0 + 1); omega
      | ⟨1, _⟩ => by show k.val = 0 + k.val * (0 + 1); omega)
  · rw [dif_neg h, pad_apply_of_not_inside _ _ _ A padVal _ _ (ix2 o k) 1 (by
      show ¬(0 ≤ k.val ∧ (k.val - 0) % (0 + 1) = 0 ∧ (k.val - 0) / (0 + 1) < 6250); omega)]
    exact padVal_apply _

/-! ## The windows' index maps, decided over the grid -/

theorem idx0 : ∀ t : Fin cfg0.N, win0_0.index t 0 = 0 ∧ win0_0.index t 1 = 0 :=
  (by decide +kernel : ∀ t : Fin grid0.N, win0_0.index t 0 = 0 ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = 0 ∧ win0_5.index t 1 = t.val :=
  (by decide +kernel : ∀ t : Fin grid0.N, win0_5.index t 0 = 0 ∧ win0_5.index t 1 = t.val)
theorem idx6 : ∀ t : Fin cfg0.N, win0_6.index t 0 = 0 ∧ win0_6.index t 1 = t.val :=
  (by decide +kernel : ∀ t : Fin grid0.N, win0_6.index t 0 = 0 ∧ win0_6.index t 1 = t.val)

theorem col_lt (t : Fin cfg0.N) (q : Fin 128) : 128 * t.val + q.val < 6272 := by
  have hN : t.val < 49 := lt_of_lt_of_eq t.isLt N_0
  have := q.isLt
  omega

/-! ## The blocks as rows of the argument arrays -/

/-- The `z` window holds all of `z` at every point. -/
theorem zRow (c : Dev nD) (t : Fin cfg0.N) (b : Fin 256) :
    rowOf (iblk m c 0 t : S256x4096.Idx → EReal) b = rowOf (zA m c) b := by
  funext j
  show (iblk m c 0 t : S256x4096.Idx → EReal) (ix2 b j) = zA m c (ix2 b j)
  have e : (iblk m c 0 t : S256x4096.Idx → EReal) (ix2 b j) = (V m c main_v0 : S256x4096.Idx → EReal) (ix2 b j) := by
    unfold iblk
    rw [View.read_apply]
    show V m c main_v0 _ = V m c main_v0 _
    congr 1
    funext a
    apply Fin.ext
    match a with
    | ⟨0, _⟩ => show win0_0.index t 0 * 256 + 1 * b.val = b.val; rw [(idx0 t).1]; omega
    | ⟨1, _⟩ => show win0_0.index t 1 * 4096 + 1 * j.val = j.val; rw [(idx0 t).2]; omega
  rw [e, V_z]
  rfl

/-- The `mask` window at point t holds rows 128·t + q of the padded table. -/
theorem maskRow (c : Dev nD) (t : Fin cfg0.N) (q : Fin 128) :
    rowOf (iblk m c 1 t : S128x4096.Idx → EReal) q = padRow (rowOf (maskA m c)) (128 * t.val + q.val) := by
  funext j
  show (iblk m c 1 t : S128x4096.Idx → EReal) (ix2 q j) = _
  have e : (iblk m c 1 t : S128x4096.Idx → EReal) (ix2 q j)
      = (V m c main_v2 : S6272x4096.Idx → EReal) (ix2 ⟨128 * t.val + q.val, col_lt t q⟩ j) := by
    unfold iblk
    rw [View.read_apply]
    show V m c main_v2 _ = V m c main_v2 _
    congr 1
    funext a
    apply Fin.ext
    match a with
    | ⟨0, _⟩ => show win0_1.index t 0 * 128 + 1 * q.val = 128 * t.val + q.val; rw [(idx1 t).1]; omega
    | ⟨1, _⟩ => show win0_1.index t 1 * 4096 + 1 * j.val = j.val; rw [(idx1 t).2]; omega
  rw [e, V_mask, truncf_apply, padRows_apply]

/-- The `T1` window at point t holds rows 128·t + q of the padded table. -/
theorem T1Row (c : Dev nD) (t : Fin cfg0.N) (q : Fin 128) :
    rowOf (iblk m c 2 t : S128x4096.Idx → EReal) q = padRow (rowOf (T1A m c)) (128 * t.val + q.val) := by
  funext j
  show (iblk m c 2 t : S128x4096.Idx → EReal) (ix2 q j) = _
  have e : (iblk m c 2 t : S128x4096.Idx → EReal) (ix2 q j)
      = (V m c main_v4 : S6272x4096.Idx → EReal) (ix2 ⟨128 * t.val + q.val, col_lt t q⟩ j) := by
    unfold iblk
    rw [View.read_apply]
    show V m c main_v4 _ = V m c main_v4 _
    congr 1
    funext a
    apply Fin.ext
    match a with
    | ⟨0, _⟩ => show win0_2.index t 0 * 128 + 1 * q.val = 128 * t.val + q.val; rw [(idx2 t).1]; omega
    | ⟨1, _⟩ => show win0_2.index t 1 * 4096 + 1 * j.val = j.val; rw [(idx2 t).2]; omega
  rw [e, V_T1, truncf_apply, padRows_apply]

/-- The `T2` window at point t holds rows 128·t + q of the padded table. -/
theorem T2Row (c : Dev nD) (t : Fin cfg0.N) (q : Fin 128) :
    rowOf (iblk m c 3 t : S128x4096.Idx → EReal) q = padRow (rowOf (T2A m c)) (128 * t.val + q.val) := by
  funext j
  show (iblk m c 3 t : S128x4096.Idx → EReal) (ix2 q j) = _
  have e : (iblk m c 3 t : S128x4096.Idx → EReal) (ix2 q j)
      = (V m c main_v6 : S6272x4096.Idx → EReal) (ix2 ⟨128 * t.val + q.val, col_lt t q⟩ j) := by
    unfold iblk
    rw [View.read_apply]
    show V m c main_v6 _ = V m c main_v6 _
    congr 1
    funext a
    apply Fin.ext
    match a with
    | ⟨0, _⟩ => show win0_3.index t 0 * 128 + 1 * q.val = 128 * t.val + q.val; rw [(idx3 t).1]; omega
    | ⟨1, _⟩ => show win0_3.index t 1 * 4096 + 1 * j.val = j.val; rw [(idx3 t).2]; omega
  rw [e, V_T2, truncf_apply, padRows_apply]

/-- The `T3` window at point t holds rows 128·t + q of the padded table. -/
theorem T3Row (c : Dev nD) (t : Fin cfg0.N) (q : Fin 128) :
    rowOf (iblk m c 4 t : S128x4096.Idx → EReal) q = padRow (rowOf (T3A m c)) (128 * t.val + q.val) := by
  funext j
  show (iblk m c 4 t : S128x4096.Idx → EReal) (ix2 q j) = _
  have e : (iblk m c 4 t : S128x4096.Idx → EReal) (ix2 q j)
      = (V m c main_v8 : S6272x4096.Idx → EReal) (ix2 ⟨128 * t.val + q.val, col_lt t q⟩ j) := by
    unfold iblk
    rw [View.read_apply]
    show V m c main_v8 _ = V m c main_v8 _
    congr 1
    funext a
    apply Fin.ext
    match a with
    | ⟨0, _⟩ => show win0_4.index t 0 * 128 + 1 * q.val = 128 * t.val + q.val; rw [(idx4 t).1]; omega
    | ⟨1, _⟩ => show win0_4.index t 1 * 4096 + 1 * j.val = j.val; rw [(idx4 t).2]; omega
  rw [e, V_T3, truncf_apply, padRows_apply]

/-- The `T0` window at point t holds entries 128·t + q of the padded `T0`. -/
theorem T0Entry (c : Dev nD) (t : Fin cfg0.N) (q : Fin 128) :
    (iblk m c 5 t : S1x128.Idx → EReal) (ix2 (0 : Fin 1) q) = padRow (fun k => T0A m c (ix1 k)) (128 * t.val + q.val) := by
  have e : (iblk m c 5 t : S1x128.Idx → EReal) (ix2 (0 : Fin 1) q)
      = (V m c main_v10 : S1x6272.Idx → EReal) (ix2 (0 : Fin 1) ⟨128 * t.val + q.val, col_lt t q⟩) := by
    unfold iblk
    rw [View.read_apply]
    show V m c main_v10 _ = V m c main_v10 _
    congr 1
    funext a
    apply Fin.ext
    match a with
    | ⟨0, _⟩ => show win0_5.index t 0 * 1 + 1 * 0 = 0; rw [(idx5 t).1]
    | ⟨1, _⟩ => show win0_5.index t 1 * 128 + 1 * q.val = 128 * t.val + q.val; rw [(idx5 t).2]; omega
  rw [e, V_T0, padT0_apply]

/-- The `C_w` window at point t holds columns 128·t + q of the padded `C_w`. -/
theorem CwEntry (c : Dev nD) (t : Fin cfg0.N) (o : Fin 10) (q : Fin 128) :
    (iblk m c 6 t : S10x128.Idx → EReal) (ix2 o q) = padRow (rowOf (CwA m c) o) (128 * t.val + q.val) := by
  have e : (iblk m c 6 t : S10x128.Idx → EReal) (ix2 o q)
      = (V m c main_v11 : S10x6272.Idx → EReal) (ix2 o ⟨128 * t.val + q.val, col_lt t q⟩) := by
    unfold iblk
    rw [View.read_apply]
    show V m c main_v11 _ = V m c main_v11 _
    congr 1
    funext a
    apply Fin.ext
    match a with
    | ⟨0, _⟩ => show win0_6.index t 0 * 10 + 1 * o.val = o.val; rw [(idx6 t).1]; omega
    | ⟨1, _⟩ => show win0_6.index t 1 * 128 + 1 * q.val = 128 * t.val + q.val; rw [(idx6 t).2]; omega
  rw [e, V_Cw, padCols_apply]

end Cert.KernelIdeal.Blk

end
-- ==== Proof.Fold.lean ====
/-
  The accumulator after each grid point is the sum of the tiles so far.

  Point `t` adds to the accumulator, at (row b, class o), the sum over its 128 columns `128·t + q` of the
  column's contribution `x₃ · C_w` read off the padded argument tables; the first point starts from zeros. By
  induction on the point the accumulator — and the output block, which is copied from it at every point —
  holds the sum of the first `t + 1` tiles.
-/
import proofs.«174270_j30288109371710_1_alg».proof.Proof.Pieces
import proofs.«174270_j30288109371710_1_alg».proof.Proof.Payload
import proofs.«174270_j30288109371710_1_alg».proof.Proof.Blocks

set_option maxRecDepth 16384

noncomputable section

open scoped BigOperators
open Idealize.ShloMosaic Idealize.ShloMosaic.TcCoe Idealize.SL.Sem

namespace Cert.KernelIdeal.Fold

open Cert.KernelIdeal Cert.KernelIdeal.Gen Idealize.ShloMosaic.ValueIdx Cert.Cheb
open Cert.KernelIdeal.Acc Cert.KernelIdeal.Tile Cert.KernelIdeal.Blk

variable (m : (ℓ : Loc nD τ sig) → Buf (Elt Ideal) ℓ)

/-- Column `k`'s contribution to the result at (row b, class o), over the padded argument tables. -/
abbrev col (c : Dev nD) (b : Fin 256) (o : Fin 10) : ℕ → EReal :=
  summand (rowOf (zA m c) b) (rowOf (maskA m c)) (rowOf (T1A m c)) (rowOf (T2A m c)) (rowOf (T3A m c))
    (fun k => T0A m c (ix1 k)) (rowOf (CwA m c) o)

/-- Point `t`'s update of an accumulator, from its input blocks. -/
abbrev pstep (c : Dev nD) (t : Fin cfg0.N) (acc : Vec Ideal S256x10 .f32) : Vec Ideal S256x10 .f32 :=
  step (iblk m c 0 t) (iblk m c 1 t) (iblk m c 2 t) (iblk m c 3 t) (iblk m c 4 t) (iblk m c 5 t) (iblk m c 6 t) acc

/-- At an index, the update adds the point's 128 column contributions. -/
theorem pstep_apply (c : Dev nD) (t : Fin cfg0.N) (acc : Vec Ideal S256x10 .f32) (b : Fin 256) (o : Fin 10) :
    pstep m c t acc (ix2 b o) = acc (ix2 b o) + ∑ q : Fin 128, col m c b o (128 * t.val + q.val) := by
  refine (step_apply (iblk m c 0 t) (iblk m c 1 t) (iblk m c 2 t) (iblk m c 3 t) (iblk m c 4 t) (iblk m c 5 t) (iblk m c 6 t) acc b o).trans ?_
  refine congrArg (acc (ix2 b o) + ·) (Finset.sum_congr rfl fun q _ => ?_)
  rw [zRow m c t b, maskRow m c t q, T1Row m c t q, T2Row m c t q, T3Row m c t q, T0Entry m c t q, CwEntry m c t o q]
  rfl

/-- After the first point both buffers hold the update of the zero block. -/
theorem outs_first (c : Dev nD) (hn : 0 < cfg0.N) :
    outsAt0 m c 0 hn = (pstep m c ⟨0, hn⟩ zeros, pstep m c ⟨0, hn⟩ zeros) :=
  (outsAt0_A m c ⟨0, hn⟩ rfl).trans (congrArg₂ Prod.mk
    (out_A (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
    (sout_A (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩)))

theorem not_first (n : ℕ) (hn : n + 1 < cfg0.N) : ¬(⟨n + 1, hn⟩ : Fin cfg0.N).val % 49 = 0 := by
  have hN : n + 1 < 49 := lt_of_lt_of_eq hn N_0
  dsimp only
  omega

/-- After a later point both buffers hold the update of what the point before left in the accumulator. -/
theorem outs_later (c : Dev nD) (n : ℕ) (hn : n + 1 < cfg0.N) :
    outsAt0 m c (n + 1) hn
      = (pstep m c ⟨n + 1, hn⟩ (outsAt0 m c n (Nat.lt_of_succ_lt hn)).2,
         pstep m c ⟨n + 1, hn⟩ (outsAt0 m c n (Nat.lt_of_succ_lt hn)).2) :=
  (outsAt0_B m c ⟨n + 1, hn⟩ (not_first n hn)).trans (congrArg₂ Prod.mk
    (out_B (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => not_first n hn ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 m c n (Nat.lt_of_succ_lt hn)).2)
    (sout_B (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => not_first n hn ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 m c n (Nat.lt_of_succ_lt hn)).2))

/-- After point `n` the output block and the accumulator hold, at (b, o), the sum of the first `n + 1` tiles. -/
theorem fold_eq (c : Dev nD) : ∀ (n : ℕ) (hn : n < cfg0.N) (b : Fin 256) (o : Fin 10),
    (outsAt0 m c n hn).1 (ix2 b o) = tiles (col m c b o) (n + 1)
      ∧ (outsAt0 m c n hn).2 (ix2 b o) = tiles (col m c b o) (n + 1)
  | 0, hn, b, o => by
    have e : pstep m c ⟨0, hn⟩ zeros (ix2 b o) = tiles (col m c b o) (0 + 1) := by
      rw [pstep_apply, tiles_succ, tiles_zero]
      show k0_pay2 (F := Ideal) (ix2 b o) + _ = 0 + _
      rw [zeros_apply]
    rw [outs_first m c hn]
    exact ⟨e, e⟩
  | n + 1, hn, b, o => by
    have ih := (fold_eq c n (Nat.lt_of_succ_lt hn) b o).2
    have e : pstep m c ⟨n + 1, hn⟩ (outsAt0 m c n (Nat.lt_of_succ_lt hn)).2 (ix2 b o) = tiles (col m c b o) (n + 1 + 1) := by
      rw [pstep_apply, ih]
      exact (tiles_succ (col m c b o) (n + 1)).symm
    rw [outs_later m c n hn]
    exact ⟨e, e⟩

end Cert.KernelIdeal.Fold

end
-- ==== Proof.Final.lean ====
/-
  The kernel's whole result.

  The output window's block never moves and is written back once, after the last grid point, when it holds
  the sum of all 49 tiles: the contraction over the 6250 real columns. The host line after the region adds
  the broadcast bias. So @main's result is the specification's `out` of the argument arrays.
-/
import proofs.«174270_j30288109371710_1_alg».proof.Proof.Fold
import Idealize.ShloMosaic.Lib.StableHlo.Run

set_option maxRecDepth 16384

noncomputable section

open scoped BigOperators
open Idealize.ShloMosaic Idealize.ShloMosaic.TcCoe Idealize.SL.Sem
open Idealize.ShloMosaic.Pipeline (Dat)

namespace Cert.KernelIdeal.Whole

open Cert.KernelIdeal Cert.KernelIdeal.Gen Idealize.ShloMosaic.ValueIdx Cert.Cheb
open Cert.KernelIdeal.Blk Cert.KernelIdeal.Fold Idealize.ShloMosaic.StableHlo

variable (m : (ℓ : Loc nD τ sig) → Buf (Elt Ideal) ℓ) (ρ : Dev nD → PrngReg)

/-- The kernel region's result: the contraction before the bias, at every (row, class). -/
abbrev kout (c : Dev nD) : Vec Ideal S256x10 .f32 := fun i =>
  contracted (rowOf (zA m c) (i 0)) (rowOf (maskA m c)) (rowOf (T1A m c)) (rowOf (T2A m c)) (rowOf (T3A m c))
    (fun k => T0A m c (ix1 k)) (rowOf (CwA m c) (i 1))

/-- The last grid point. -/
abbrev tLast : Fin cfg0.N := ⟨48, by rw [show cfg0.N = 49 from N_0]; decide⟩

/-- After the last point the output block holds the whole contraction. -/
theorem last_eq (c : Dev nD) : (outsAt0 m c 48 tLast.isLt).1 = kout m c := by
  funext i
  obtain ⟨b, o, rfl⟩ : ∃ (b : Fin 256) (o : Fin 10), i = ix2 b o := ⟨i 0, i 1, eq_ix2 i⟩
  rw [(fold_eq m c 48 tLast.isLt b o).1]
  exact tiles_summand _ _ _ _ _ _ _

/-- The output window's block at the last point starts at offset zero on both axes and has the array's extents. -/
theorem last_block : ∀ a : Fin 2,
    win0_7.index tLast a * win0_7.size a = 0 ∧ win0_7.xsize (grid0.coords tLast) a = S256x10.size a := by
  decide +kernel

/-- So reading any contents of the result array through that block gives the contents back. -/
theorem read_last (G : Vec Ideal S256x10 .f32) : ((cfg0.win 7).blk tLast).view.read (Elt Ideal) G = G := by
  funext y
  rw [View.read_apply]
  show G _ = G y
  congr 1
  funext a
  apply Fin.ext
  show win0_7.index tLast a * win0_7.size a + 1 * (y a).val = (y a).val
  rw [(last_block a).1]
  omega

/-- The one write-back, after the last point, writes the whole contraction. -/
theorem flushed_eq (c : Dev nD) (t : Fin cfg0.N) (hf : (cfg0.win 7).flush t = true) :
    (dats m 0 c).flushed 7 t = ((cfg0.win 7).blk t).view.read (Elt Ideal) (kout m c) := by
  have hN : cfg0.N = 49 := N_0
  have h48 : t.val = 48 := by have := (flush0_7 t).mp hf; have := t.isLt; omega
  obtain rfl : t = tLast := Fin.ext h48
  rw [read_last]
  show (cfg0.win 7).cut (grid0.coords tLast) ((dats m 0 c).after 7 tLast) = _
  rw [after0_7]
  exact last_eq m c

/-- Every index of the result array lies in the block the last point writes back. -/
theorem mem_last (i : S256x10.Idx) : i ∈ ((cfg0.win 7).blk tLast).view.set := by
  show i ∈ ((View.whole main_v12).slice (win0_7.rect tLast)).set
  rw [View.set_slice_whole, Rect.mem_set_unit]
  intro a
  show win0_7.index tLast a * win0_7.size a ≤ (i a).val
    ∧ (i a).val < win0_7.index tLast a * win0_7.size a + win0_7.xsize (grid0.coords tLast) a
  rw [(last_block a).1, (last_block a).2]
  exact ⟨Nat.zero_le _, by rw [Nat.zero_add]; exact (i a).isLt⟩

/-- So the region's result array ends holding the contraction. -/
theorem region_out (c : Dev nD) : (dats m 0 c).arrAt 7 cfg0.N = kout m c :=
  (dats m 0 c).arrAt_eq_of_cover 7 (kout m c) (flushed_eq m c) fun i => ⟨tLast, (flush0_7 tLast).mpr rfl, mem_last i⟩

/-- The bias, broadcast to a row and then down the 256 rows, at (b, o): its entry o. -/
theorem bias_apply (x : FVec Ideal S10 .f32) (b : Fin 256) (o : Fin 10) :
    broadcastInDim S256x10 ![0, 1] bcast_S1x10_S256x10_0_1 (broadcastInDim S1x10 ![1] bcast_S10_S1x10_1 x) (ix2 b o) = x (ix1 o) := by
  rw [broadcastInDim_apply _ bcast_S1x10_S256x10_0_1 _ (ix2 b o) (ix2 (0 : Fin 1) o) (fun a => match a with
    | ⟨0, _⟩ => by show 0 = if (1 : Nat) = 1 then 0 else b.val; rw [if_pos rfl]
    | ⟨1, _⟩ => by show o.val = if (10 : Nat) = 1 then 0 else o.val; rw [if_neg (by decide)]),
    broadcastInDim_apply _ bcast_S10_S1x10_1 x (ix2 (0 : Fin 1) o) (ix1 o) (fun a => match a with
    | ⟨0, _⟩ => by show o.val = if (10 : Nat) = 1 then 0 else o.val; rw [if_neg (by decide)])]

/-- @main's result after the host line that adds the bias. -/
theorem tail_eq (c : Dev nD) :
    Pipeline.afterTail₀ cfgs (dats m) 0 (V0 m) [hostOps1] c main_v15
      = out (zA m c) (T1A m c) (T2A m c) (T3A m c) (T0A m c) (CwA m c) (CbA m c) (maskA m c) := by
  unfold Pipeline.afterTail₀
  show StableHlo.after hostOps1 _ (Proc.devRef .tc main_v15) = _
  after_results
  have e12 : Pipeline.withArrays (cfgs 0).spec c (V0 m c) (fun w => (dats m 0 c).arrAt w (cfgs 0).N)
      (Proc.devRef .tc main_v12) = kout m c :=
    (Pipeline.withArrays_arr spec0 launch0.win.arr_inj c _ _ 7).trans (region_out m c)
  have e6 : Pipeline.withArrays (cfgs 0).spec c (V0 m c) (fun w => (dats m 0 c).arrAt w (cfgs 0).N)
      (Proc.devRef .tc main_arg6) = CbA m c :=
    (Pipeline.withArrays_of_ne _ c (V0 m c) _ main_arg6 (by exact (by decide : ∀ w, Pipeline.arrRef spec0 w ≠ main_arg6))).trans
      (V_main_arg6 m c)
  rw [e12, e6]
  funext i
  obtain ⟨b, o, rfl⟩ : ∃ (b : Fin 256) (o : Fin 10), i = ix2 b o := ⟨i 0, i 1, eq_ix2 i⟩
  rw [addf_apply, bias_apply]
  rfl

/-- The idealized kernel program's run, read: every weakly fair execution ends with the result array at `out` of the
    argument arrays and the arguments unchanged. -/
theorem run : θ_run defs (onTc (τ := τ) (main (F := Ideal))) ⟨m, fun _ => 0, ρ⟩ (fun r => ∀ c : Dev nD,
      r.2.mem ((c.tc : Thread nD τ).loc main_v15)
        = out (zA m c) (T1A m c) (T2A m c) (T3A m c) (T0A m c) (CwA m c) (CbA m c) (maskA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
      ((h c).2 main_v15 (Pipeline.mem_restRefs_of main_v15 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩) (run_main m ρ)

end Cert.KernelIdeal.Whole

end
-- ==== Proof.lean ====
/-
  The certificate of a fused masked-matmul / Chebyshev-recurrence / classifier kernel against its jnp reference,
  over the extended reals.

  Both programs compute, for a batch row `b` and an output class `o`,
  `(∑ₖ x₃ b k · C_w o k) + C_b o` over the 6250 columns `k`, where with `dᵢ = ∑ⱼ z b j · (mask k j · Tᵢ k j)` the
  recurrence's third term is `x₃ b k = (2·d₃)·((2·d₂)·d₁ − T0 k) − d₁` (Proof/ChebSpec.lean: `out`).

  The reference computes this directly (Proof/RefValue.lean, over its generated run and read-at-an-index lemmas).
  The kernel pads the column axis with zeros to 6272 = 49·128 and runs 49 grid points; point `t` adds the
  contraction of tile `t`'s 128 columns to an accumulator carried between points (reset at the first) and copies
  the accumulator to the output block, which is written back once after the last point; the bias is added on
  the host after the region. What a point leaves is read off the generated frame (Proof/Pieces.lean), its
  arithmetic at an index is Proof/Payload.lean, its input blocks are rows of the padded tables
  (Proof/Blocks.lean), the induction over the points is Proof/Fold.lean, and the final array and the host tail
  are Proof/Final.lean. The two sides meet by regrouping a finite sum of extended reals and by `x · 0 = 0` on the
  22 padded columns; neither needs the inputs to be finite, so the precondition is never opened.

  The three frames: the two kernel programs' are the generated frame runs; the reference's is its generated run
  with the result dropped. The ideal pass rewrote nothing, so `preserves` is `True`.
-/
import proofs.«174270_j30288109371710_1_alg».proof.Defs
import proofs.«174270_j30288109371710_1_alg».proof.Proof.Gen.Kernel
import proofs.«174270_j30288109371710_1_alg».proof.Proof.Gen.Kernel.Frame
import proofs.«174270_j30288109371710_1_alg».proof.Proof.Gen.KernelIdeal
import proofs.«174270_j30288109371710_1_alg».proof.Proof.Gen.KernelIdeal.Frame
import proofs.«174270_j30288109371710_1_alg».proof.Proof.Gen.ReferenceIdeal
import proofs.«174270_j30288109371710_1_alg».proof.Proof.Gen.ReferenceIdeal.Run
import proofs.«174270_j30288109371710_1_alg».proof.Proof.Gen.ReferenceIdeal.Read
import proofs.«174270_j30288109371710_1_alg».proof.Proof.Gen.Pre_finite_inputs
import proofs.«174270_j30288109371710_1_alg».proof.Proof.RefValue
import proofs.«174270_j30288109371710_1_alg».proof.Proof.Final
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the result array at `out` of the argument arrays: the kernel by its run read
    back (Proof/Final.lean), the reference by its generated run and `reference_eq`, from arguments that agree. -/
theorem algebraic : Cert.algebraic_KernelIdeal_ReferenceIdeal := by
  intro m ρ m' ρ' _ hagree
  refine ⟨fun c => Cert.Cheb.out (Cert.KernelIdeal.Blk.zA m c) (Cert.KernelIdeal.Blk.T1A m c) (Cert.KernelIdeal.Blk.T2A m c)
      (Cert.KernelIdeal.Blk.T3A m c) (Cert.KernelIdeal.Blk.T0A m c) (Cert.KernelIdeal.Blk.CwA m c) (Cert.KernelIdeal.Blk.CbA m c)
      (Cert.KernelIdeal.Blk.maskA m c), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v23_eq (F := Ideal) (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))
    (m' ((c.tc : Thread Cert.ReferenceIdeal.nD Cert.ReferenceIdeal.τ).loc Cert.ReferenceIdeal.main_arg7))).trans ?_
  rw [Cert.ReferenceIdeal.Cheb.reference_eq, (hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
